-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S24x2048 : Shape := ⟨2, ![24, 2048]⟩
abbrev S24x24 : Shape := ⟨2, ![24, 24]⟩
abbrev S2048x24 : Shape := ⟨2, ![2048, 24]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S24x2048 : S_.BroadcastsInDim S24x2048 (![] : Fin 0 → Fin S24x2048.rank)
  reducesTo_S24x2048_S_d0_1 : S24x2048.ReducesTo [0, 1] S_
  bcast_S_S24x24 : S_.BroadcastsInDim S24x24 (![] : Fin 0 → Fin S24x24.rank)
  reducesTo_S24x24_S_d0_1 : S24x24.ReducesTo [0, 1] S_
  bcast_S_S2048x24 : S_.BroadcastsInDim S2048x24 (![] : Fin 0 → Fin S2048x24.rank)
  reducesTo_S2048x24_S_d0_1 : S2048x24.ReducesTo [0, 1] S_

variable [Facts]

def fn_part1 {F : FTy → Type} [FloatOps F] (main_arg4 : FVec F S2048x24 .f32) (main_arg5 : FVec F S24x24 .f32) (main_v13 : IVec S_ 1) (main_v16 : IVec S24x24 1) : IVec S_ 1 :=
  let main_c_5 : IVec S_ 1 := constantI S_ 1 1#1
  let main_v17 : IVec S_ 1 := (fun x v => Host.reduce IntOp.andi x v reducesTo_S24x24_S_d0_1 h_S_) main_v16 main_c_5
  let main_v18 : IVec S_ 1 := andi main_v13 main_v17
  let main_v19 : FVec F S2048x24 .f32 := Host.absf main_arg4
  let main_cst_6 : FVec F S_ .f32 := constant S_ .f32 0x7F800000#32
  let main_v20 : FVec F S2048x24 .f32 := broadcastInDim S2048x24 ![] bcast_S_S2048x24 main_cst_6
  let main_v21 : IVec S2048x24 1 := cmpf .olt main_v19 main_v20
  let main_c_7 : IVec S_ 1 := constantI S_ 1 1#1
  let main_v22 : IVec S_ 1 := (fun x v => Host.reduce IntOp.andi x v reducesTo_S2048x24_S_d0_1 h_S_) main_v21 main_c_7
  let main_v23 : IVec S_ 1 := andi main_v18 main_v22
  let main_v24 : FVec F S24x24 .f32 := Host.absf main_arg5
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  main_v28

def fn {F : FTy → Type} [FloatOps F] (main_arg0 : FVec F S8x4096x2048 .f32) (main_arg1 : FVec F S24x2048 .f32) (main_arg2 : FVec F S24x2048 .f32) (main_arg3 : FVec F S24x24 .f32) (main_arg4 : FVec F S2048x24 .f32) (main_arg5 : FVec F S24x24 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S24x2048 .f32 := Host.absf main_arg1
  let main_cst_0 : FVec F S_ .f32 := constant S_ .f32 0x7F800000#32
  let main_v5 : FVec F S24x2048 .f32 := broadcastInDim S24x2048 ![] bcast_S_S24x2048 main_cst_0
  let main_v6 : IVec S24x2048 1 := cmpf .olt main_v4 main_v5
  let main_c_1 : IVec S_ 1 := constantI S_ 1 1#1
  let main_v7 : IVec S_ 1 := (fun x v => Host.reduce IntOp.andi x v reducesTo_S24x2048_S_d0_1 h_S_) main_v6 main_c_1
  let main_v8 : IVec S_ 1 := andi main_v3 main_v7
  let main_v9 : FVec F S24x2048 .f32 := Host.absf main_arg2
  let main_cst_2 : FVec F S_ .f32 := constant S_ .f32 0x7F800000#32
  let main_v10 : FVec F S24x2048 .f32 := broadcastInDim S24x2048 ![] bcast_S_S24x2048 main_cst_2
  let main_v11 : IVec S24x2048 1 := cmpf .olt main_v9 main_v10
  let main_c_3 : IVec S_ 1 := constantI S_ 1 1#1
  let main_v12 : IVec S_ 1 := (fun x v => Host.reduce IntOp.andi x v reducesTo_S24x2048_S_d0_1 h_S_) main_v11 main_c_3
  let main_v13 : IVec S_ 1 := andi main_v8 main_v12
  let main_v14 : FVec F S24x24 .f32 := Host.absf main_arg3
  let main_cst_4 : FVec F S_ .f32 := constant S_ .f32 0x7F800000#32
  let main_v15 : FVec F S24x24 .f32 := broadcastInDim S24x24 ![] bcast_S_S24x24 main_cst_4
  let main_v16 : IVec S24x24 1 := cmpf .olt main_v14 main_v15
  fn_part1 (F := F) main_arg4 main_arg5 main_v13 main_v16
-- ==== Kernel.lean ====
abbrev S8x4096x2048 : Shape := ⟨3, ![8, 4096, 2048]⟩
abbrev S24x2048 : Shape := ⟨2, ![24, 2048]⟩
abbrev S24x24 : Shape := ⟨2, ![24, 24]⟩
abbrev S2048x24 : Shape := ⟨2, ![2048, 24]⟩
abbrev S8x24x4096 : Shape := ⟨3, ![8, 24, 4096]⟩
abbrev S8x1x24 : Shape := ⟨3, ![8, 1, 24]⟩
abbrev S1x1024x2048 : Shape := ⟨3, ![1, 1024, 2048]⟩
abbrev S1x24x1024 : Shape := ⟨3, ![1, 24, 1024]⟩
abbrev S1x1x24 : Shape := ⟨3, ![1, 1, 24]⟩
abbrev S1024x2048 : Shape := ⟨2, ![1024, 2048]⟩
abbrev S24x1024 : Shape := ⟨2, ![24, 1024]⟩
abbrev S24 : Shape := ⟨1, ![24]⟩
abbrev S8x24 : Shape := ⟨2, ![8, 24]⟩
abbrev S_ : Shape := ⟨0, ![]⟩
abbrev S1x24x512 : Shape := ⟨3, ![1, 24, 512]⟩
abbrev S1x512x2048 : Shape := ⟨3, ![1, 512, 2048]⟩
abbrev S24x512 : Shape := ⟨2, ![24, 512]⟩
abbrev S512x24 : Shape := ⟨2, ![512, 24]⟩
abbrev S512x2048 : Shape := ⟨2, ![512, 2048]⟩

abbrev nBuf : Space → Nat
  | .hbm => 32
  | .vmem => 18
  | .smem => 0
  | _ => 0

abbrev bufTy : (tb : Table) → Fin (tcTables nBuf tb) → BufTy
  | .hbm, ⟨0, _⟩ => ⟨S8x4096x2048, .f32⟩
  | .hbm, ⟨1, _⟩ => ⟨S24x2048, .f32⟩
  | .hbm, ⟨2, _⟩ => ⟨S24x2048, .f32⟩
  | .hbm, ⟨3, _⟩ => ⟨S24x24, .f32⟩
  | .hbm, ⟨4, _⟩ => ⟨S2048x24, .f32⟩
  | .hbm, ⟨5, _⟩ => ⟨S24x24, .f32⟩
  | .hbm, ⟨6, _⟩ => ⟨S8x24x4096, .bf16⟩
  | .hbm, ⟨7, _⟩ => ⟨S8x1x24, .f32⟩
  | .hbm, ⟨8, _⟩ => ⟨S8x1x24, .f32⟩
  | .hbm, ⟨9, _⟩ => ⟨S8x24, .f32⟩
  | .hbm, ⟨10, _⟩ => ⟨S_, .f32⟩
  | .hbm, ⟨11, _⟩ => ⟨S8x24, .f32⟩
  | .hbm, ⟨12, _⟩ => ⟨S8x24, .f32⟩
  | .hbm, ⟨13, _⟩ => ⟨S8x24, .f32⟩
  | .hbm, ⟨14, _⟩ => ⟨S_, .f32⟩
  | .hbm, ⟨15, _⟩ => ⟨S8x24, .f32⟩
  | .hbm, ⟨16, _⟩ => ⟨S8x24, .f32⟩
  | .hbm, ⟨17, _⟩ => ⟨S24x24, .f32⟩
  | .hbm, ⟨18, _⟩ => ⟨S_, .f32⟩
  | .hbm, ⟨19, _⟩ => ⟨S24x24, .f32⟩
  | .hbm, ⟨20, _⟩ => ⟨S24x24, .f32⟩
  | .hbm, ⟨21, _⟩ => ⟨S_, .f32⟩
  | .hbm, ⟨22, _⟩ => ⟨S24x24, .f32⟩
  | .hbm, ⟨23, _⟩ => ⟨S24x24, .f32⟩
  | .hbm, ⟨24, _⟩ => ⟨S_, .f32⟩
  | .hbm, ⟨25, _⟩ => ⟨S24x24, .f32⟩
  | .hbm, ⟨26, _⟩ => ⟨S24x24, .f32⟩
  | .hbm, ⟨27, _⟩ => ⟨S24x24, .f32⟩
  | .hbm, ⟨28, _⟩ => ⟨S24x24, .f32⟩
  | .hbm, ⟨29, _⟩ => ⟨S8x4096x2048, .f32⟩
  | .hbm, ⟨30, _⟩ => ⟨S8x1x24, .f32⟩
  | .hbm, ⟨31, _⟩ => ⟨S8x24, .f32⟩
  | .local _ .vmem, ⟨0, _⟩ => ⟨S1x1024x2048, .f32⟩
  | .local _ .vmem, ⟨1, _⟩ => ⟨S1x1024x2048, .f32⟩
  | .local _ .vmem, ⟨2, _⟩ => ⟨S24x2048, .f32⟩
  | .local _ .vmem, ⟨3, _⟩ => ⟨S24x2048, .f32⟩
  | .local _ .vmem, ⟨4, _⟩ => ⟨S1x24x1024, .bf16⟩
  | .local _ .vmem, ⟨5, _⟩ => ⟨S1x24x1024, .bf16⟩
  | .local _ .vmem, ⟨6, _⟩ => ⟨S1x1x24, .f32⟩
  | .local _ .vmem, ⟨7, _⟩ => ⟨S1x1x24, .f32⟩
  | .local _ .vmem, ⟨8, _⟩ => ⟨S1x1x24, .f32⟩
  | .local _ .vmem, ⟨9, _⟩ => ⟨S1x1x24, .f32⟩
  | .local _ .vmem, ⟨10, _⟩ => ⟨S1x24x512, .bf16⟩
  | .local _ .vmem, ⟨11, _⟩ => ⟨S1x24x512, .bf16⟩
  | .local _ .vmem, ⟨12, _⟩ => ⟨S24x24, .f32⟩
  | .local _ .vmem, ⟨13, _⟩ => ⟨S2048x24, .f32⟩
  | .local _ .vmem, ⟨14, _⟩ => ⟨S1x512x2048, .f32⟩
  | .local _ .vmem, ⟨15, _⟩ => ⟨S1x512x2048, .f32⟩
  | .local _ .vmem, ⟨16, _⟩ => ⟨S1x1x24, .f32⟩
  | .local _ .vmem, ⟨17, _⟩ => ⟨S1x1x24, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S24x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x24x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x24x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S24x24 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2048x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1x1x24_S1x1x24_0_0_0 : ∀ a, (![0, 0, 0] : Fin 3 → Nat) a + S1x1x24.size a ≤ S1x1x24.size a
  h_S1x1x24 : 0 < S1x1x24.numel
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S24x2048_S24x2048_0_0 : ∀ a, (![0, 0] : Fin 2 → Nat) a + S24x2048.size a ≤ S24x2048.size a
  h_S24x2048 : 0 < S24x2048.numel
  inb_S1x24x1024_S1x24x1024_0_0_0 : ∀ a, (![0, 0, 0] : Fin 3 → Nat) a + S1x24x1024.size a ≤ S1x24x1024.size a
  h_S1x24x1024 : 0 < S1x24x1024.numel
  shapeCasts_S1x24x1024_S24x1024 : S1x24x1024.ShapeCasts S24x1024
  shapeCasts_S24x1024_S1x24x1024 : S24x1024.ShapeCasts S1x24x1024
  packedbf16_S1x24x1024_S1x24x1024_0_0_0 : (Rect.unit (s := S1x24x1024) ![0, 0, 0] S1x24x1024.size inb_S1x24x1024_S1x24x1024_0_0_0).PackedRows (EltTy.packing .bf16)
  shapeCasts_S1x1x24_S1x1x24 : S1x1x24.ShapeCasts S1x1x24
  reduces_S24x1024_S24 : S24x1024.Reduces [1] S24
  shapeCasts_S24_S1x1x24 : S24.ShapeCasts S1x1x24
  shapeCasts_S8x1x24_S8x24 : S8x1x24.ShapeCasts S8x24
  bcast_S_S8x24 : S_.BroadcastsInDim S8x24 (![] : Fin 0 → Fin S8x24.rank)
  bcast_S_S24x24 : S_.BroadcastsInDim S24x24 (![] : Fin 0 → Fin S24x24.rank)
  inb_S1x24x512_S1x24x512_0_0_0 : ∀ a, (![0, 0, 0] : Fin 3 → Nat) a + S1x24x512.size a ≤ S1x24x512.size a
  h_S1x24x512 : 0 < S1x24x512.numel
  shapeCasts_S1x24x512_S24x512 : S1x24x512.ShapeCasts S24x512
  inb_S24x24_S24x24_0_0 : ∀ a, (![0, 0] : Fin 2 → Nat) a + S24x24.size a ≤ S24x24.size a
  h_S24x24 : 0 < S24x24.numel
  shapeCasts_S24x24_S24x24 : S24x24.ShapeCasts S24x24
  inb_S2048x24_S2048x24_0_0 : ∀ a, (![0, 0] : Fin 2 → Nat) a + S2048x24.size a ≤ S2048x24.size a
  h_S2048x24 : 0 < S2048x24.numel
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  reduces_S512x24_S24 : S512x24.Reduces [0] S24
  dot_S24x2048_S1024x2048_S24x1024_1_1_0_0_n_n_wf : DotDims.WF S24x2048 S1024x2048 S24x1024 [1] [1] [0] [0] [] []
  dot_S8x24_S8x24_S24x24_0_0_1_1_n_n_wf : DotDims.WF S8x24 S8x24 S24x24 [0] [0] [1] [1] [] []
  dot_S24x512_S24x24_S512x24_0_0_1_1_n_n_wf : DotDims.WF S24x512 S24x24 S512x24 [0] [0] [1] [1] [] []
  dot_S512x24_S2048x24_S512x2048_1_1_0_0_n_n_wf : DotDims.WF S512x24 S2048x24 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x2048.size a ≤ S24x2048.size a
  hwx0_1 : ∀ i : grid0.Coords, EltTy.bits .f32 = 32 ∨ (Rect.block (s := S24x2048) S24x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x2048.size a ≤ S24x2048.size a
  hwx0_2 : ∀ i : grid0.Coords, EltTy.bits .f32 = 32 ∨ (Rect.block (s := S24x2048) S24x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x24x1024.size a ≤ S8x24x4096.size a
  hwx0_3 : ∀ i : grid0.Coords, EltTy.bits .bf16 = 32 ∨ (Rect.block (s := S8x24x4096) S1x24x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x24.size a ≤ S8x1x24.size a
  hwx0_4 : ∀ i : grid0.Coords, EltTy.bits .f32 = 32 ∨ (Rect.block (s := S8x1x24) S1x1x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x24.size a ≤ S8x1x24.size a
  hwx0_5 : ∀ i : grid0.Coords, EltTy.bits .f32 = 32 ∨ (Rect.block (s := S8x1x24) S1x1x24.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x24x512.size a ≤ S8x24x4096.size a
  hwx1_0 : ∀ i : grid1.Coords, EltTy.bits .bf16 = 32 ∨ (Rect.block (s := S8x24x4096) S1x24x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S24x24.size a ≤ S24x24.size a
  hwx1_1 : ∀ i : grid1.Coords, EltTy.bits .f32 = 32 ∨ (Rect.block (s := S24x24) S24x24.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x24.size a ≤ S2048x24.size a
  hwx1_2 : ∀ i : grid1.Coords, EltTy.bits .f32 = 32 ∨ (Rect.block (s := S2048x24) S2048x24.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S8x4096x2048.size a
  hwx1_3 : ∀ i : grid1.Coords, EltTy.bits .f32 = 32 ∨ (Rect.block (s := S8x4096x2048) S1x512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x24.size a ≤ S8x1x24.size a
  hwx1_4 : ∀ i : grid1.Coords, EltTy.bits .f32 = 32 ∨ (Rect.block (s := S8x1x24) S1x1x24.size (cc1_transform_4 i) (hinb1_4 i)).WholeWords (EltTy.packing .f32)

variable [Facts₀]

def dot_S24x2048_S1024x2048_S24x1024_1_1_0_0_n_n : DotDims S24x2048 S1024x2048 S24x1024 where
  lhsContracting := [1]
  rhsContracting := [1]
  lhsNonContracting := [0]
  rhsNonContracting := [0]
  lhsBatch := []
  rhsBatch := []
  wf := dot_S24x2048_S1024x2048_S24x1024_1_1_0_0_n_n_wf
def dot_S8x24_S8x24_S24x24_0_0_1_1_n_n : DotDims S8x24 S8x24 S24x24 where
  lhsContracting := [0]
  rhsContracting := [0]
  lhsNonContracting := [1]
  rhsNonContracting := [1]
  lhsBatch := []
  rhsBatch := []
  wf := dot_S8x24_S8x24_S24x24_0_0_1_1_n_n_wf
def dot_S24x512_S24x24_S512x24_0_0_1_1_n_n : DotDims S24x512 S24x24 S512x24 where
  lhsContracting := [0]
  rhsContracting := [0]
  lhsNonContracting := [1]
  rhsNonContracting := [1]
  lhsBatch := []
  rhsBatch := []
  wf := dot_S24x512_S24x24_S512x24_0_0_1_1_n_n_wf
def dot_S512x24_S2048x24_S512x2048_1_1_0_0_n_n : DotDims S512x24 S2048x24 S512x2048 where
  lhsContracting := [1]
  rhsContracting := [1]
  lhsNonContracting := [0]
  rhsNonContracting := [0]
  lhsBatch := []
  rhsBatch := []
  wf := dot_S512x24_S2048x24_S512x2048_1_1_0_0_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x24x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x24.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x24.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1x24x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S24x24.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2048x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S1x512x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S1x1x24.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x4096x2048 : Shape := ⟨3, ![8, 4096, 2048]⟩
abbrev S24x2048 : Shape := ⟨2, ![24, 2048]⟩
abbrev S24x24 : Shape := ⟨2, ![24, 24]⟩
abbrev S2048x24 : Shape := ⟨2, ![2048, 24]⟩
abbrev S8x4096x24 : Shape := ⟨3, ![8, 4096, 24]⟩
abbrev S_ : Shape := ⟨0, ![]⟩
abbrev S8x24 : Shape := ⟨2, ![8, 24]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S24x2048, .f32⟩
  | .hbm, ⟨2, _⟩ => ⟨S24x2048, .f32⟩
  | .hbm, ⟨3, _⟩ => ⟨S24x24, .f32⟩
  | .hbm, ⟨4, _⟩ => ⟨S2048x24, .f32⟩
  | .hbm, ⟨5, _⟩ => ⟨S24x24, .f32⟩
  | .hbm, ⟨6, _⟩ => ⟨S8x4096x24, .f32⟩
  | .hbm, ⟨7, _⟩ => ⟨S8x4096x24, .f32⟩
  | .hbm, ⟨8, _⟩ => ⟨S_, .f32⟩
  | .hbm, ⟨9, _⟩ => ⟨S8x24, .f32⟩
  | .hbm, ⟨10, _⟩ => ⟨S_, .f32⟩
  | .hbm, ⟨11, _⟩ => ⟨S8x24, .f32⟩
  | .hbm, ⟨12, _⟩ => ⟨S8x24, .f32⟩
  | .hbm, ⟨13, _⟩ => ⟨S_, .f32⟩
  | .hbm, ⟨14, _⟩ => ⟨S8x24, .f32⟩
  | .hbm, ⟨15, _⟩ => ⟨S_, .f32⟩
  | .hbm, ⟨16, _⟩ => ⟨S8x24, .f32⟩
  | .hbm, ⟨17, _⟩ => ⟨S8x24, .f32⟩
  | .hbm, ⟨18, _⟩ => ⟨S24x24, .f32⟩
  | .hbm, ⟨19, _⟩ => ⟨S_, .f32⟩
  | .hbm, ⟨20, _⟩ => ⟨S24x24, .f32⟩
  | .hbm, ⟨21, _⟩ => ⟨S24x24, .f32⟩
  | .hbm, ⟨22, _⟩ => ⟨S_, .f32⟩
  | .hbm, ⟨23, _⟩ => ⟨S24x24, .f32⟩
  | .hbm, ⟨24, _⟩ => ⟨S24x24, .f32⟩
  | .hbm, ⟨25, _⟩ => ⟨S_, .f32⟩
  | .hbm, ⟨26, _⟩ => ⟨S24x24, .f32⟩
  | .hbm, ⟨27, _⟩ => ⟨S24x24, .f32⟩
  | .hbm, ⟨28, _⟩ => ⟨S24x24, .f32⟩
  | .hbm, ⟨29, _⟩ => ⟨S24x24, .f32⟩
  | .hbm, ⟨30, _⟩ => ⟨S8x4096x24, .f32⟩
  | .hbm, ⟨31, _⟩ => ⟨S_, .f32⟩
  | .hbm, ⟨32, _⟩ => ⟨S8x24, .f32⟩
  | .hbm, ⟨33, _⟩ => ⟨S_, .f32⟩
  | .hbm, ⟨34, _⟩ => ⟨S8x24, .f32⟩
  | .hbm, ⟨35, _⟩ => ⟨S8x24, .f32⟩
  | .hbm, ⟨36, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  reducesTo_S8x4096x24_S8x24_d1 : S8x4096x24.ReducesTo [1] S8x24
  h_S_ : 0 < S_.numel
  bcast_S_S8x24 : S_.BroadcastsInDim S8x24 (![] : Fin 0 → Fin S8x24.rank)
  bcast_S_S24x24 : S_.BroadcastsInDim S24x24 (![] : Fin 0 → Fin S24x24.rank)
  dot_S8x4096x2048_S24x2048_S8x4096x24_2_1_01_0_n_n_wf : DotDims.WF S8x4096x2048 S24x2048 S8x4096x24 [2] [1] [0, 1] [0] [] []
  dot_S8x24_S8x24_S24x24_0_0_1_1_n_n_wf : DotDims.WF S8x24 S8x24 S24x24 [0] [0] [1] [1] [] []
  dot_S8x4096x24_S24x24_S8x4096x24_2_0_01_1_n_n_wf : DotDims.WF S8x4096x24 S24x24 S8x4096x24 [2] [0] [0, 1] [1] [] []
  dot_S8x4096x24_S2048x24_S8x4096x2048_2_1_01_0_n_n_wf : DotDims.WF S8x4096x24 S2048x24 S8x4096x2048 [2] [1] [0, 1] [0] [] []

variable [Facts₀]

def dot_S8x4096x2048_S24x2048_S8x4096x24_2_1_01_0_n_n : DotDims S8x4096x2048 S24x2048 S8x4096x24 where
  lhsContracting := [2]
  rhsContracting := [1]
  lhsNonContracting := [0, 1]
  rhsNonContracting := [0]
  lhsBatch := []
  rhsBatch := []
  wf := dot_S8x4096x2048_S24x2048_S8x4096x24_2_1_01_0_n_n_wf
def dot_S8x24_S8x24_S24x24_0_0_1_1_n_n : DotDims S8x24 S8x24 S24x24 where
  lhsContracting := [0]
  rhsContracting := [0]
  lhsNonContracting := [1]
  rhsNonContracting := [1]
  lhsBatch := []
  rhsBatch := []
  wf := dot_S8x24_S8x24_S24x24_0_0_1_1_n_n_wf
def dot_S8x4096x24_S24x24_S8x4096x24_2_0_01_1_n_n : DotDims S8x4096x24 S24x24 S8x4096x24 where
  lhsContracting := [2]
  rhsContracting := [0]
  lhsNonContracting := [0, 1]
  rhsNonContracting := [1]
  lhsBatch := []
  rhsBatch := []
  wf := dot_S8x4096x24_S24x24_S8x4096x24_2_0_01_1_n_n_wf
def dot_S8x4096x24_S2048x24_S8x4096x2048_2_1_01_0_n_n : DotDims S8x4096x24 S2048x24 S8x4096x2048 where
  lhsContracting := [2]
  rhsContracting := [1]
  lhsNonContracting := [0, 1]
  rhsNonContracting := [0]
  lhsBatch := []
  rhsBatch := []
  wf := dot_S8x4096x24_S2048x24_S8x4096x2048_2_1_01_0_n_n_wf

class Facts : Prop extends Facts₀ where

variable [Facts]
-- ==== Proof.Names.lean ====
/-
  Names shared by the value modules of the two kernel regions: each input block and each array a region reads,
  under a name of its literal vector type, and the coordinates of a grid point.

  Region 0 (grid 8 × 4, point t = 4·b + j): the block of x at t is rows 1024·j … 1024·j + 1023 of batch b; the two
  weight matrices are read whole.  Region 1 (grid 8 × 8, point t = 8·b + j): the block of the stored projection at t
  is columns 512·j … 512·j + 511 of batch b; the 24 × 24 matrix and the output weights are read whole.
-/
import proofs.«110294_j17282948399130_1_alg».proof.Proof.Gen.KernelIdeal.Frame
import Idealize.ShloMosaic.Lib.ValueIdx

noncomputable section

namespace Cert.KernelIdeal.KV

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-! ## Region 0 -/

/-- The block of x at point t. -/
abbrev xblk0 (c : Dev nD) (t : Fin cfg0.N) : Vec F S1x1024x2048 .f32 := iblk0 V c 0 t
/-- The first weight matrix as point t reads it. -/
abbrev w1blk0 (c : Dev nD) (t : Fin cfg0.N) : Vec F S24x2048 .f32 := iblk0 V c 1 t
/-- The second weight matrix as point t reads it. -/
abbrev w2blk0 (c : Dev nD) (t : Fin cfg0.N) : Vec F S24x2048 .f32 := iblk0 V c 2 t
/-- x as region 0 finds it. -/
abbrev xarr0 (c : Dev nD) : Vec F S8x4096x2048 .f32 := V c main_arg0
/-- The first weight matrix as region 0 finds it. -/
abbrev w1arr0 (c : Dev nD) : Vec F S24x2048 .f32 := V c main_arg1
/-- The second weight matrix as region 0 finds it. -/
abbrev w2arr0 (c : Dev nD) : Vec F S24x2048 .f32 := V c main_arg2

theorem lt0 (t : Fin cfg0.N) : t.val < 32 := lt_of_lt_of_eq t.isLt (show cfg0.N = 32 from N_0)

/-- The batch of point t = 4·b + j of region 0. -/
def bOf0 (t : Fin cfg0.N) : Fin 8 := ⟨t.val / 4, by have := lt0 t; omega⟩
/-- Row s of the block at point t = 4·b + j is row 1024·j + s of the batch. -/
def rowOf0 (t : Fin cfg0.N) (s : Fin 1024) : Fin 4096 := ⟨1024 * (t.val % 4) + s.val, by have := s.isLt; omega⟩

/-! ## Region 1 -/

/-- The block of the stored projection at point t. -/
abbrev pblk1 (c : Dev nD) (t : Fin cfg1.N) : Vec F S1x24x512 .bf16 := iblk1 V c 0 t
/-- The 24 × 24 matrix as point t reads it. -/
abbrev eblk1 (c : Dev nD) (t : Fin cfg1.N) : Vec F S24x24 .f32 := iblk1 V c 1 t
/-- The output weights as point t reads them. -/
abbrev wblk1 (c : Dev nD) (t : Fin cfg1.N) : Vec F S2048x24 .f32 := iblk1 V c 2 t
/-- The stored projection as region 1 finds it. -/
abbrev parr1 (c : Dev nD) : Vec F S8x24x4096 .bf16 := V c main_v0_0
/-- The 24 × 24 matrix as region 1 finds it. -/
abbrev earr1 (c : Dev nD) : Vec F S24x24 .f32 := V c main_v15
/-- The output weights as region 1 finds them. -/
abbrev warr1 (c : Dev nD) : Vec F S2048x24 .f32 := V c main_arg4

theorem lt1 (t : Fin cfg1.N) : t.val < 64 := lt_of_lt_of_eq t.isLt (show cfg1.N = 64 from N_1)

/-- The batch of point t = 8·b + j of region 1. -/
def bOf1 (t : Fin cfg1.N) : Fin 8 := ⟨t.val / 8, by have := lt1 t; omega⟩
/-- Column s of the block at point t = 8·b + j is column 512·j + s of the batch. -/
def rowOf1 (t : Fin cfg1.N) (s : Fin 512) : Fin 4096 := ⟨512 * (t.val % 8) + s.val, by have := s.isLt; omega⟩

end Cert.KernelIdeal.KV

end
-- ==== Proof.Blocks0.lean ====
/-
  Region 0's input blocks read through the arrays: row s of the block of x at point t = 4·b + j is row 1024·j + s of
  batch b, and each weight matrix's block is the whole matrix.
-/
import proofs.«110294_j17282948399130_1_alg».proof.Proof.Names
import Idealize.ShloMosaic.Lib.Pipeline.Value

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

variable (V : (c : Dev nD) → (b : Ref sig .tc) → Buf (Elt Ideal) ((c : Thread nD τ).loc b))

/-- The block index of x at point t = 4·b + j is (b, j, 0): decided once over the 32 points of the grid. -/
theorem xblk0_index : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- Each weight matrix has one block, of index (0, 0), at every point. -/
theorem w1blk0_index : ∀ t : Fin cfg0.N, win0_1.index t (0 : Fin 2) = 0 ∧ win0_1.index t (1 : Fin 2) = 0 :=
  (by decide +kernel : ∀ t : Fin grid0.N, _)

theorem w2blk0_index : ∀ t : Fin cfg0.N, win0_2.index t (0 : Fin 2) = 0 ∧ win0_2.index t (1 : Fin 2) = 0 :=
  (by decide +kernel : ∀ t : Fin grid0.N, _)

/-- A block's coordinate on an axis is block index × block size + the coordinate inside the block: on the batch axis
    that is t / 4, on the row axis 1024·(t % 4) + s, on the feature axis d. -/
theorem xblk0_apply (c : Dev nD) (t : Fin cfg0.N) (s : Fin 1024) (d : Fin 2048) :
    xblk0 V c t (ix3 (0 : Fin 1) s d) = xarr0 V c (ix3 (bOf0 t) (rowOf0 t s) d) := by
  obtain ⟨e0, e1, e2⟩ := xblk0_index t
  show V c main_arg0 (((cfg0.win 0).blk t).view.emb (ix3 (0 : Fin 1) s d)) = V c main_arg0 (ix3 (bOf0 t) (rowOf0 t s) d)
  congr 1
  funext a
  apply Fin.ext
  match a with
  | ⟨0, _⟩ => show win0_0.index t (0 : Fin 3) * 1 + 1 * 0 = t.val / 4; omega
  | ⟨1, _⟩ => show win0_0.index t (1 : Fin 3) * 1024 + 1 * s.val = 1024 * (t.val % 4) + s.val; omega
  | ⟨2, _⟩ => show win0_0.index t (2 : Fin 3) * 2048 + 1 * d.val = d.val; omega

/-- The one block of the first weight matrix is the matrix: its coordinates are 0·size + the coordinate itself. -/
theorem w1blk0_eq (c : Dev nD) (t : Fin cfg0.N) : w1blk0 V c t = w1arr0 V c := by
  obtain ⟨e0, e1⟩ := w1blk0_index t
  funext y
  show V c main_arg1 (((cfg0.win 1).blk t).view.emb y) = V c main_arg1 y
  congr 1
  funext a
  apply Fin.ext
  match a with
  | ⟨0, _⟩ => show win0_1.index t (0 : Fin 2) * 24 + 1 * (y 0).val = (y 0).val; omega
  | ⟨1, _⟩ => show win0_1.index t (1 : Fin 2) * 2048 + 1 * (y 1).val = (y 1).val; omega

/-- The same for the second weight matrix. -/
theorem w2blk0_eq (c : Dev nD) (t : Fin cfg0.N) : w2blk0 V c t = w2arr0 V c := by
  obtain ⟨e0, e1⟩ := w2blk0_index t
  funext y
  show V c main_arg2 (((cfg0.win 2).blk t).view.emb y) = V c main_arg2 y
  congr 1
  funext a
  apply Fin.ext
  match a with
  | ⟨0, _⟩ => show win0_2.index t (0 : Fin 2) * 24 + 1 * (y 0).val = (y 0).val; omega
  | ⟨1, _⟩ => show win0_2.index t (1 : Fin 2) * 2048 + 1 * (y 1).val = (y 1).val; omega

end Cert.KernelIdeal.KV

end
-- ==== Proof.Pieces0.lean ====
/-
  What each control case of region 0's body leaves in its three output buffers, as the body's payload terms.
  Case A (first row block of a batch): the two running sums are reset to zero and then take this block's row sums.
  Case B (later row blocks): they take this block's row sums over what the block before left.
  In both cases the projection block is stored whole.
-/
import proofs.«110294_j17282948399130_1_alg».proof.Proof.Gen.KernelIdeal.Frame
import Idealize.ShloMosaic.Lib.Pipeline.Value
import Idealize.ShloMosaic.Lib.Tactic
import Idealize.ShloMosaic.Lib.ValueIdx

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

variable {F : FTy → Type} [FloatOps F]

/-- The three zero offsets of a rank-3 block are the constant zero function: a rectangle at these offsets of the block's own sizes is the whole block. -/
theorem p0_hz3 : (![0, 0, 0] : Fin 3 → Nat) = fun _ => 0 := funext fun a => by fin_cases a <;> rfl

/-- The same for the two offsets of a rank-2 block. -/
theorem p0_hz2 : (![0, 0] : Fin 2 → Nat) = fun _ => 0 := funext fun a => by fin_cases a <;> rfl

/-- Case A, the projection block: one store of the whole block, whose payload reads the input block and the first weight matrix whole. -/
theorem out0_A_3_eq (c : Dev nD) (i : grid0.Coords) (a2 : Memref sig .tc .vmem S1x1024x2048 .f32) (h2 : a2.IsWhole) (a3 : Memref sig .tc .vmem S24x2048 .f32) (h3 : a3.IsWhole) (a4 : Memref sig .tc .vmem S24x2048 .f32) (h4 : a4.IsWhole) (a5 : Memref sig .tc .vmem S1x24x1024 .bf16) (h5 : a5.IsWhole) (a6 : Memref sig .tc .vmem S1x1x24 .f32) (h6 : a6.IsWhole) (a7 : Memref sig .tc .vmem S1x1x24 .f32) (h7 : a7.IsWhole) (hc : cond0_0 i) (x0 : Vec F S1x1024x2048 .f32) (x1 x2 : Vec F S24x2048 .f32) :
    out0_A_3 c i a2 h2 a3 h3 a4 h4 a5 h5 a6 h6 a7 h7 hc x0 x1 x2 = k0_pay5 x0 x1 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero (S := S1x24x1024) p0_hz3]
  simp only [View.readAt_eq_ld, h2.read_unread, h3.read_unread, h4.read_unread, h6.read_unread, h7.read_unread, View.ld_unit_zero (S := S1x1024x2048) p0_hz3, View.ld_unit_zero (S := S24x2048) p0_hz2, View.ld_unit_zero (S := S1x1x24) p0_hz3]

/-- Case A, the first running sum: the zero block is stored, read back whole, and the update stored over it; the last store covers the buffer, so it alone is left. -/
theorem out0_A_4_eq (c : Dev nD) (i : grid0.Coords) (a2 : Memref sig .tc .vmem S1x1024x2048 .f32) (h2 : a2.IsWhole) (a3 : Memref sig .tc .vmem S24x2048 .f32) (h3 : a3.IsWhole) (a4 : Memref sig .tc .vmem S24x2048 .f32) (h4 : a4.IsWhole) (a5 : Memref sig .tc .vmem S1x24x1024 .bf16) (h5 : a5.IsWhole) (a6 : Memref sig .tc .vmem S1x1x24 .f32) (h6 : a6.IsWhole) (a7 : Memref sig .tc .vmem S1x1x24 .f32) (h7 : a7.IsWhole) (hc : cond0_0 i) (x0 : Vec F S1x1024x2048 .f32) (x1 x2 : Vec F S24x2048 .f32) :
    out0_A_4 c i a2 h2 a3 h3 a4 h4 a5 h5 a6 h6 a7 h7 hc x0 x1 x2 = k0_pay6 x0 x1 (k0_pay1 (F := F)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x24) p0_hz3, View.readCov_unit_zero (S := S1x1x24) _ p0_hz3]
  simp only [View.readAt_eq_ld, h2.read_unread, h3.read_unread, h4.read_unread, h6.read_unread, h7.read_unread, View.ld_unit_zero (S := S1x1024x2048) p0_hz3, View.ld_unit_zero (S := S24x2048) p0_hz2, View.ld_unit_zero (S := S1x1x24) p0_hz3]

/-- Case A, the second running sum: the same, with the second weight matrix and its own zero block. -/
theorem out0_A_5_eq (c : Dev nD) (i : grid0.Coords) (a2 : Memref sig .tc .vmem S1x1024x2048 .f32) (h2 : a2.IsWhole) (a3 : Memref sig .tc .vmem S24x2048 .f32) (h3 : a3.IsWhole) (a4 : Memref sig .tc .vmem S24x2048 .f32) (h4 : a4.IsWhole) (a5 : Memref sig .tc .vmem S1x24x1024 .bf16) (h5 : a5.IsWhole) (a6 : Memref sig .tc .vmem S1x1x24 .f32) (h6 : a6.IsWhole) (a7 : Memref sig .tc .vmem S1x1x24 .f32) (h7 : a7.IsWhole) (hc : cond0_0 i) (x0 : Vec F S1x1024x2048 .f32) (x1 x2 : Vec F S24x2048 .f32) :
    out0_A_5 c i a2 h2 a3 h3 a4 h4 a5 h5 a6 h6 a7 h7 hc x0 x1 x2 = k0_pay7 x0 x2 (k0_pay2 (F := F)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x24) p0_hz3, View.readCov_unit_zero (S := S1x1x24) _ p0_hz3]
  simp only [View.readAt_eq_ld, h2.read_unread, h3.read_unread, h4.read_unread, h6.read_unread, h7.read_unread, View.ld_unit_zero (S := S1x1024x2048) p0_hz3, View.ld_unit_zero (S := S24x2048) p0_hz2, View.ld_unit_zero (S := S1x1x24) p0_hz3]

/-- Case B, the projection block: as in case A. -/
theorem out0_B_3_eq (c : Dev nD) (i : grid0.Coords) (a2 : Memref sig .tc .vmem S1x1024x2048 .f32) (h2 : a2.IsWhole) (a3 : Memref sig .tc .vmem S24x2048 .f32) (h3 : a3.IsWhole) (a4 : Memref sig .tc .vmem S24x2048 .f32) (h4 : a4.IsWhole) (a5 : Memref sig .tc .vmem S1x24x1024 .bf16) (h5 : a5.IsWhole) (a6 : Memref sig .tc .vmem S1x1x24 .f32) (h6 : a6.IsWhole) (a7 : Memref sig .tc .vmem S1x1x24 .f32) (h7 : a7.IsWhole) (hc : ¬cond0_0 i) (x0 : Vec F S1x1024x2048 .f32) (x1 x2 : Vec F S24x2048 .f32) (xo4 xo5 : Vec F S1x1x24 .f32) :
    out0_B_3 c i a2 h2 a3 h3 a4 h4 a5 h5 a6 h6 a7 h7 hc x0 x1 x2 xo4 xo5 = k0_pay5 x0 x1 := by
  unfold out0_B_3
  rw [View.read_writes_eq_canon _ _ _ (cover0_B_3 c i a2 h2 a3 h3 a4 h4 a5 h5 a6 h6 a7 h7 hc x0 x1 x2 xo4 xo5)]
  unfold kernelRun0_B
  dsimp only
  sl_unfold_words
  rw [View.canon_unit_zero (S := S1x24x1024) p0_hz3]
  simp only [View.readAt_eq_ld, h2.read_unread, h3.read_unread, h4.read_unread, h6.read_unread, h7.read_unread, View.ld_unit_zero (S := S1x1024x2048) p0_hz3, View.ld_unit_zero (S := S24x2048) p0_hz2, View.ld_unit_zero (S := S1x1x24) p0_hz3]

/-- Case B, the first running sum: one store of the whole buffer, whose payload reads what the buffer held before. -/
theorem out0_B_4_eq (c : Dev nD) (i : grid0.Coords) (a2 : Memref sig .tc .vmem S1x1024x2048 .f32) (h2 : a2.IsWhole) (a3 : Memref sig .tc .vmem S24x2048 .f32) (h3 : a3.IsWhole) (a4 : Memref sig .tc .vmem S24x2048 .f32) (h4 : a4.IsWhole) (a5 : Memref sig .tc .vmem S1x24x1024 .bf16) (h5 : a5.IsWhole) (a6 : Memref sig .tc .vmem S1x1x24 .f32) (h6 : a6.IsWhole) (a7 : Memref sig .tc .vmem S1x1x24 .f32) (h7 : a7.IsWhole) (hc : ¬cond0_0 i) (x0 : Vec F S1x1024x2048 .f32) (x1 x2 : Vec F S24x2048 .f32) (xo4 xo5 : Vec F S1x1x24 .f32) :
    out0_B_4 c i a2 h2 a3 h3 a4 h4 a5 h5 a6 h6 a7 h7 hc x0 x1 x2 xo4 xo5 = k0_pay6 x0 x1 xo4 := by
  unfold out0_B_4
  rw [View.read_writes_eq_canon _ _ _ (cover0_B_4 c i a2 h2 a3 h3 a4 h4 a5 h5 a6 h6 a7 h7 hc x0 x1 x2 xo4 xo5)]
  unfold kernelRun0_B
  dsimp only
  sl_unfold_words
  rw [View.canon_unit_zero (S := S1x1x24) p0_hz3]
  simp only [View.readAt_eq_ld, h2.read_unread, h3.read_unread, h4.read_unread, h6.read_unread, h7.read_unread, View.ld_unit_zero (S := S1x1024x2048) p0_hz3, View.ld_unit_zero (S := S24x2048) p0_hz2, View.ld_unit_zero (S := S1x1x24) p0_hz3]

/-- Case B, the second running sum: the same, with the second weight matrix. -/
theorem out0_B_5_eq (c : Dev nD) (i : grid0.Coords) (a2 : Memref sig .tc .vmem S1x1024x2048 .f32) (h2 : a2.IsWhole) (a3 : Memref sig .tc .vmem S24x2048 .f32) (h3 : a3.IsWhole) (a4 : Memref sig .tc .vmem S24x2048 .f32) (h4 : a4.IsWhole) (a5 : Memref sig .tc .vmem S1x24x1024 .bf16) (h5 : a5.IsWhole) (a6 : Memref sig .tc .vmem S1x1x24 .f32) (h6 : a6.IsWhole) (a7 : Memref sig .tc .vmem S1x1x24 .f32) (h7 : a7.IsWhole) (hc : ¬cond0_0 i) (x0 : Vec F S1x1024x2048 .f32) (x1 x2 : Vec F S24x2048 .f32) (xo4 xo5 : Vec F S1x1x24 .f32) :
    out0_B_5 c i a2 h2 a3 h3 a4 h4 a5 h5 a6 h6 a7 h7 hc x0 x1 x2 xo4 xo5 = k0_pay7 x0 x2 xo5 := by
  unfold out0_B_5
  rw [View.read_writes_eq_canon _ _ _ (cover0_B_5 c i a2 h2 a3 h3 a4 h4 a5 h5 a6 h6 a7 h7 hc x0 x1 x2 xo4 xo5)]
  unfold kernelRun0_B
  dsimp only
  sl_unfold_words
  rw [View.canon_unit_zero (S := S1x1x24) p0_hz3]
  simp only [View.readAt_eq_ld, h2.read_unread, h3.read_unread, h4.read_unread, h6.read_unread, h7.read_unread, View.ld_unit_zero (S := S1x1024x2048) p0_hz3, View.ld_unit_zero (S := S24x2048) p0_hz2, View.ld_unit_zero (S := S1x1x24) p0_hz3]

end Cert.KernelIdeal.KV

end
-- ==== Proof.Pay0.lean ====
/-
  Region 0's payloads read at an index, over the extended reals.  With w a weight matrix (24 × 2048) and x a block
  of 1024 rows: the projection at (h, s) is Σ_d w[h,d]·x[s,d]; the running sum at h takes Σ_s of that over what it held.
-/
import proofs.«110294_j17282948399130_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

/-! ## The product's operand indices, axis by axis

The product contracts axis 1 of the weight matrix (24 × 2048) with axis 1 of the block (1024 × 2048): at the output
index (h, s) and contraction position d the left operand is read at (h, d) and the right one at (s, d). -/

theorem pay0_lhs_0 (i : S24x1024.Idx) (q : dot_S24x2048_S1024x2048_S24x1024_1_1_0_0_n_n.contr.Idx) :
    (dot_S24x2048_S1024x2048_S24x1024_1_1_0_0_n_n.lhsIdx i q 0).val = (i 0).val := by
  unfold DotDims.lhsIdx
  rw [dif_neg (show ¬(0 : Fin S24x2048.rank) ∈ dot_S24x2048_S1024x2048_S24x1024_1_1_0_0_n_n.lhsBatch by decide), dif_pos (show (0 : Fin S24x2048.rank) ∈ dot_S24x2048_S1024x2048_S24x1024_1_1_0_0_n_n.lhsNonContracting by decide)]
  rfl
theorem pay0_lhs_1 (i : S24x1024.Idx) (q : dot_S24x2048_S1024x2048_S24x1024_1_1_0_0_n_n.contr.Idx) :
    (dot_S24x2048_S1024x2048_S24x1024_1_1_0_0_n_n.lhsIdx i q 1).val = (q ⟨0, by decide⟩).val :=
  dot_S24x2048_S1024x2048_S24x1024_1_1_0_0_n_n.lhsIdx_val_of_single rfl i q
theorem pay0_rhs_0 (i : S24x1024.Idx) (q : dot_S24x2048_S1024x2048_S24x1024_1_1_0_0_n_n.contr.Idx) :
    (dot_S24x2048_S1024x2048_S24x1024_1_1_0_0_n_n.rhsIdx i q 0).val = (i 1).val := by
  unfold DotDims.rhsIdx
  rw [dif_neg (show ¬(0 : Fin S1024x2048.rank) ∈ dot_S24x2048_S1024x2048_S24x1024_1_1_0_0_n_n.rhsBatch by decide), dif_pos (show (0 : Fin S1024x2048.rank) ∈ dot_S24x2048_S1024x2048_S24x1024_1_1_0_0_n_n.rhsNonContracting by decide)]
  rfl
theorem pay0_rhs_1 (i : S24x1024.Idx) (q : dot_S24x2048_S1024x2048_S24x1024_1_1_0_0_n_n.contr.Idx) :
    (dot_S24x2048_S1024x2048_S24x1024_1_1_0_0_n_n.rhsIdx i q 1).val = (q ⟨0, by decide⟩).val :=
  dot_S24x2048_S1024x2048_S24x1024_1_1_0_0_n_n.rhsIdx_val_of_single rfl i q

/-- The product into a zero accumulator, read at (h, s): the inner product of row h of the left operand with row s of
    the right one (the accumulator's word is zero and 0 + x = x). -/
theorem pay0_mm_apply (w : FVec Ideal S24x2048 .bf16) (x : FVec Ideal S1024x2048 .bf16) (h : Fin 24) (s : Fin 1024) :
    matmul dot_S24x2048_S1024x2048_S24x1024_1_1_0_0_n_n none w x (constant (F := Ideal) S24x1024 .f32 0x00000000#32) (ix2 h s)
      = ∑ d : Fin 2048, w (ix2 h d) * x (ix2 s d) := by
  simp only [matmul]
  rw [Ideal.matmul_constant_zero_apply, ← Equiv.sum_comp (ValueIdx.contrEquiv1 dot_S24x2048_S1024x2048_S24x1024_1_1_0_0_n_n 2048 rfl rfl).symm]
  refine Finset.sum_congr rfl fun k _ => ?_
  have hk := ValueIdx.contrEquiv1_symm_val dot_S24x2048_S1024x2048_S24x1024_1_1_0_0_n_n 2048 rfl rfl k
  have el : dot_S24x2048_S1024x2048_S24x1024_1_1_0_0_n_n.lhsIdx (ix2 h s) ((ValueIdx.contrEquiv1 dot_S24x2048_S1024x2048_S24x1024_1_1_0_0_n_n 2048 rfl rfl).symm k) = ix2 h k := funext fun a => Fin.ext (by
    match a with
    | ⟨0, _⟩ => exact pay0_lhs_0 _ _
    | ⟨1, _⟩ => exact (pay0_lhs_1 _ _).trans hk)
  have er : dot_S24x2048_S1024x2048_S24x1024_1_1_0_0_n_n.rhsIdx (ix2 h s) ((ValueIdx.contrEquiv1 dot_S24x2048_S1024x2048_S24x1024_1_1_0_0_n_n 2048 rfl rfl).symm k) = ix2 s k := funext fun a => Fin.ext (by
    match a with
    | ⟨0, _⟩ => exact pay0_rhs_0 _ _
    | ⟨1, _⟩ => exact (pay0_rhs_1 _ _).trans hk)
  rw [el, er]

/-- The sum over the lanes (axis 1) of a 24 × 1024 array from the zero word, read at h: Σ_s of the entries (h, s). -/
theorem pay0_red_apply (src : FVec Ideal S24x1024 .f32) (hr : S24x1024.Reduces [1] S24) (hφ : FKind.Formats FTy.f32)
    (hacc : (0x00000000#32 : BitVec 32) = FKind.add.neutral .f32 hφ) (h : Fin 24) :
    multiReduction (F := Ideal) .add [1] S24 src 0x00000000#32 hr hφ hacc (ix1 h) = ∑ s : Fin 1024, src (ix2 h s) := by
  simp only [multiReduction]
  refine (Ideal.multiReduction_add_single src 0x00000000#32 hr hφ hacc (ix1 h)).trans ?_
  refine Finset.sum_congr rfl fun s _ => congrArg src ?_
  exact funext fun a => Fin.ext (by
    match a with
    | ⟨0, _⟩ => rfl
    | ⟨1, _⟩ => rfl)

/-- A vector of 24 cast to 1 × 1 × 24 reads, at (0, 0, h), the operand at h (the same row-major position). -/
theorem pay0_cast_apply {α : Type} (x : S24.Idx → α) (hc : S24.ShapeCasts S1x1x24) (h : Fin 24) :
    shapeCast S1x1x24 x hc (ix3 (0 : Fin 1) (0 : Fin 1) h) = x (ix1 h) :=
  shapeCast_apply x hc _ _ (by
    rw [Shape.rowMajor_val_three, Shape.rowMajor_val_one]
    show h.val = (0 * 1 + 0) * 24 + h.val
    omega)

theorem pay1_0_apply (j : S1x1x24.Idx) : k0_pay1 (F := Ideal) j = 0 := by
  unfold k0_pay1
  exact Ideal.ofBits_zero_f32

theorem pay2_0_apply (j : S1x1x24.Idx) : k0_pay2 (F := Ideal) j = 0 := by
  unfold k0_pay2
  exact Ideal.ofBits_zero_f32

/-- The projection of a block: entry (h, s) is the inner product of weight row h with block row s. -/
theorem pay4_0_apply (v3 : Vec Ideal S1x1024x2048 .f32) (v6 : Vec Ideal S24x2048 .f32) (h : Fin 24) (s : Fin 1024) :
    k0_pay4 v3 v6 (ix2 h s) = ∑ d : Fin 2048, v6 (ix2 h d) * v3 (ix3 (0 : Fin 1) s d) := by
  unfold k0_pay4 k0_pay3
  refine (pay0_mm_apply _ _ h s).trans ?_
  refine Finset.sum_congr rfl fun d _ => ?_
  rw [ValueIdx.truncf_apply, ValueIdx.truncf_apply, ValueIdx.shapeCast_1ab_ab_apply]

theorem pay5_0_apply (v3 : Vec Ideal S1x1024x2048 .f32) (v6 : Vec Ideal S24x2048 .f32) (h : Fin 24) (s : Fin 1024) :
    k0_pay5 v3 v6 (ix3 (0 : Fin 1) h s) = ∑ d : Fin 2048, v6 (ix2 h d) * v3 (ix3 (0 : Fin 1) s d) := by
  unfold k0_pay5
  refine (ValueIdx.shapeCast_ab_1ab_apply _ _ (0 : Fin 1) h s).trans ?_
  rw [ValueIdx.truncf_apply]
  exact pay4_0_apply v3 v6 h s

theorem pay6_0_apply (v3 : Vec Ideal S1x1024x2048 .f32) (v6 : Vec Ideal S24x2048 .f32) (v16 : Vec Ideal S1x1x24 .f32) (h : Fin 24) :
    k0_pay6 v3 v6 v16 (ix3 (0 : Fin 1) (0 : Fin 1) h)
      = v16 (ix3 (0 : Fin 1) (0 : Fin 1) h) + ∑ s : Fin 1024, ∑ d : Fin 2048, v6 (ix2 h d) * v3 (ix3 (0 : Fin 1) s d) := by
  unfold k0_pay6
  rw [ValueIdx.addf_apply, shapeCast_self, pay0_cast_apply]
  refine congrArg (v16 (ix3 (0 : Fin 1) (0 : Fin 1) h) + ·) ?_
  refine (pay0_red_apply _ _ _ _ h).trans ?_
  exact Finset.sum_congr rfl fun s _ => pay4_0_apply v3 v6 h s

theorem pay7_0_apply (v3 : Vec Ideal S1x1024x2048 .f32) (v8 : Vec Ideal S24x2048 .f32) (v22 : Vec Ideal S1x1x24 .f32) (h : Fin 24) :
    k0_pay7 v3 v8 v22 (ix3 (0 : Fin 1) (0 : Fin 1) h)
      = v22 (ix3 (0 : Fin 1) (0 : Fin 1) h) + ∑ s : Fin 1024, ∑ d : Fin 2048, v8 (ix2 h d) * v3 (ix3 (0 : Fin 1) s d) := by
  unfold k0_pay7
  rw [ValueIdx.addf_apply, shapeCast_self, pay0_cast_apply]
  refine congrArg (v22 (ix3 (0 : Fin 1) (0 : Fin 1) h) + ·) ?_
  refine (pay0_red_apply _ _ _ _ h).trans ?_
  exact Finset.sum_congr rfl fun s _ => pay4_0_apply v3 v8 h s

end Cert.KernelIdeal.KV

end
-- ==== Proof.Final0_3.lean ====
/-
  Region 0's first output after the run: the projection of every row of x onto the first weight matrix, stored
  transposed — entry (b, h, t) is Σ_d W[h,d]·x[b,t,d].  Each grid point writes its own 24 × 1024 block, and the blocks tile
  the array.
-/
import proofs.«110294_j17282948399130_1_alg».proof.Proof.Names
import proofs.«110294_j17282948399130_1_alg».proof.Proof.Blocks0
import proofs.«110294_j17282948399130_1_alg».proof.Proof.Pieces0
import proofs.«110294_j17282948399130_1_alg».proof.Proof.Pay0
import Idealize.ShloMosaic.Lib.Pipeline.Value

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

variable (V : (c : Dev nD) → (b : Ref sig .tc) → Buf (Elt Ideal) ((c : Thread nD τ).loc b))

/-- The projection as ONE function of the two arrays: entry (b, h, r) is the inner product of weight row h with row r of
    batch b of x. -/
def proj0 (c : Dev nD) : Vec Ideal S8x24x4096 .bf16 := fun i =>
  ∑ d : Fin 2048, w1arr0 V c (ix2 (⟨(i 1).val, (i 1).isLt⟩ : Fin 24) d)
    * xarr0 V c (ix3 (⟨(i 0).val, (i 0).isLt⟩ : Fin 8) (⟨(i 2).val, (i 2).isLt⟩ : Fin 4096) d)

theorem proj0_apply (c : Dev nD) (b : Fin 8) (h : Fin 24) (r : Fin 4096) :
    proj0 V c (ix3 b h r) = ∑ d : Fin 2048, w1arr0 V c (ix2 h d) * xarr0 V c (ix3 b r d) := rfl

/-- The block index of the output at point t = 4·b + j is (b, 0, j): decided once over the 32 points of the grid. -/
theorem oblk0_3_index : ∀ t : Fin cfg0.N, win0_3.index t (0 : Fin 3) = t.val / 4 ∧ win0_3.index t (1 : Fin 3) = 0
    ∧ win0_3.index t (2 : Fin 3) = t.val % 4 :=
  (by decide +kernel : ∀ t : Fin grid0.N, _)

/-- In both control cases the body stores the projection of the point's block of x whole. -/
theorem outsAt0_3 (c : Dev nD) (t : Fin cfg0.N) :
    (outsAt0 V c t.val t.isLt).1 = k0_pay5 (xblk0 V c t) (w1blk0 V c t) := by
  by_cases h : t.val % 4 = 0
  · rw [outsAt0_A V c t h]
    dsimp only
    exact out0_A_3_eq (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) ((hcond0_0 t).mpr h)
      (iblk0 V c 0 t) (iblk0 V c 1 t) (iblk0 V c 2 t)
  · rw [outsAt0_B V c t h]
    dsimp only
    exact out0_B_3_eq (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (fun h' => h ((hcond0_0 t).mp h'))
      (iblk0 V c 0 t) (iblk0 V c 1 t) (iblk0 V c 2 t)
      (outsAt0 V c (t.val - 1) (Nat.lt_of_le_of_lt (Nat.sub_le _ _) t.isLt)).2.1
      (outsAt0 V c (t.val - 1) (Nat.lt_of_le_of_lt (Nat.sub_le _ _) t.isLt)).2.2

/-- What point t = 4·b + j writes back is block (b, 0, j) of the projection: entry (0, h, s) of the stored block is the
    inner product of weight row h with row s of the point's block of x, which is row 1024·j + s of batch b. -/
theorem flushed0_3_eq (c : Dev nD) (t : Fin cfg0.N) :
    (dat0 V c).flushed 3 t = ((cfg0.win 3).blk t).view.read (Elt Ideal) (proj0 V c) := by
  show (cfg0.win 3).cut (grid0.coords t) ((dat0 V c).after 3 t) = _
  rw [after0_3, outsAt0_3]
  obtain ⟨e0, e1, e2⟩ := oblk0_3_index t
  funext y
  have y0 : (y 0).val < 1 := (y 0).isLt
  have y1 : (y 1).val < 24 := (y 1).isLt
  have y2 : (y 2).val < 1024 := (y 2).isLt
  have hin : (cfg0.win 3).xinj (grid0.coords t) y = ix3 (0 : Fin 1) (⟨(y 1).val, y1⟩ : Fin 24) (⟨(y 2).val, y2⟩ : Fin 1024) := by
    funext a
    apply Fin.ext
    match a with
    | ⟨0, _⟩ => show (y 0).val = 0; omega
    | ⟨1, _⟩ => rfl
    | ⟨2, _⟩ => rfl
  have hemb : ((cfg0.win 3).blk t).view.emb y
      = ix3 (bOf0 t) (⟨(y 1).val, y1⟩ : Fin 24) (rowOf0 t (⟨(y 2).val, y2⟩ : Fin 1024)) := by
    funext a
    apply Fin.ext
    match a with
    | ⟨0, _⟩ => show win0_3.index t (0 : Fin 3) * 1 + 1 * (y 0).val = t.val / 4; omega
    | ⟨1, _⟩ => show win0_3.index t (1 : Fin 3) * 24 + 1 * (y 1).val = (y 1).val; omega
    | ⟨2, _⟩ => show win0_3.index t (2 : Fin 3) * 1024 + 1 * (y 2).val = 1024 * (t.val % 4) + (y 2).val; omega
  show k0_pay5 (xblk0 V c t) (w1blk0 V c t) ((cfg0.win 3).xinj (grid0.coords t) y)
    = proj0 V c (((cfg0.win 3).blk t).view.emb y)
  refine (congrArg (k0_pay5 (xblk0 V c t) (w1blk0 V c t)) hin).trans ?_
  refine (pay5_0_apply (xblk0 V c t) (w1blk0 V c t) _ _).trans ?_
  refine Eq.trans ?_ (congrArg (proj0 V c) hemb).symm
  refine Eq.trans ?_ (proj0_apply V c _ _ _).symm
  refine Finset.sum_congr rfl fun d _ => ?_
  rw [w1blk0_eq V c t, xblk0_apply V c t _ d]

/-- Every entry (b, h, r) of the array lies in the block of the point 4·b + r / 1024, so the blocks tile the array and
    it ends holding the projection. -/
theorem final0_3 (c : Dev nD) : (dat0 V c).arrAt 3 cfg0.N = proj0 V c :=
  (dat0 V c).arrAt_eq_of_cover 3 (proj0 V c) (fun t _ => flushed0_3_eq V c t) fun i => by
    have i0 : (i 0).val < 8 := (i 0).isLt
    have i1 : (i 1).val < 24 := (i 1).isLt
    have i2 : (i 2).val < 4096 := (i 2).isLt
    have hN : cfg0.N = 32 := N_0
    have hn : 4 * (i 0).val + (i 2).val / 1024 < cfg0.N := by rw [hN]; omega
    obtain ⟨e0, e1, e2⟩ := oblk0_3_index ⟨4 * (i 0).val + (i 2).val / 1024, hn⟩
    have f0 : win0_3.index ⟨4 * (i 0).val + (i 2).val / 1024, hn⟩ (0 : Fin 3) = (4 * (i 0).val + (i 2).val / 1024) / 4 := e0
    have f2 : win0_3.index ⟨4 * (i 0).val + (i 2).val / 1024, hn⟩ (2 : Fin 3) = (4 * (i 0).val + (i 2).val / 1024) % 4 := e2
    refine ⟨⟨4 * (i 0).val + (i 2).val / 1024, hn⟩, flush0_3 _, ?_⟩
    show i ∈ ((View.whole main_v0_0).slice (win0_3.rect ⟨4 * (i 0).val + (i 2).val / 1024, hn⟩)).set
    rw [View.set_slice_whole, Rect.mem_set_unit]
    intro a
    match a with
    | ⟨0, _⟩ =>
      show win0_3.index ⟨4 * (i 0).val + (i 2).val / 1024, hn⟩ (0 : Fin 3) * 1 ≤ (i 0).val
        ∧ (i 0).val < win0_3.index ⟨4 * (i 0).val + (i 2).val / 1024, hn⟩ (0 : Fin 3) * 1 + 1
      omega
    | ⟨1, _⟩ =>
      show win0_3.index ⟨4 * (i 0).val + (i 2).val / 1024, hn⟩ (1 : Fin 3) * 24 ≤ (i 1).val
        ∧ (i 1).val < win0_3.index ⟨4 * (i 0).val + (i 2).val / 1024, hn⟩ (1 : Fin 3) * 24 + 24
      omega
    | ⟨2, _⟩ =>
      show win0_3.index ⟨4 * (i 0).val + (i 2).val / 1024, hn⟩ (2 : Fin 3) * 1024 ≤ (i 2).val
        ∧ (i 2).val < win0_3.index ⟨4 * (i 0).val + (i 2).val / 1024, hn⟩ (2 : Fin 3) * 1024 + 1024
      omega

theorem final0_3_apply (c : Dev nD) (b : Fin 8) (h : Fin 24) (t : Fin 4096) :
    ((dat0 V c).arrAt 3 cfg0.N : Vec Ideal S8x24x4096 .bf16) (ix3 b h t)
      = ∑ d : Fin 2048, w1arr0 V c (ix2 h d) * xarr0 V c (ix3 b t d) := by
  rw [final0_3 V c]
  exact proj0_apply V c b h t

end Cert.KernelIdeal.KV

end
-- ==== Proof.Final0_45.lean ====
/-
  Region 0's two running sums after the run: entry (b, 0, h) is Σ_t Σ_d W[h,d]·x[b,t,d], the sum over all 4096 rows of
  batch b of the row's projection onto weight row h — accumulated over the batch's four row blocks (reset at the first,
  written back after the fourth).

  The road.  After point n the staging buffer of either sum holds a fold over the points of n's batch so far: at the
  batch's first point (n ≡ 0 mod 4) it is zero plus that block's sum, at each later point what the point before left
  plus that block's sum.  The block sum of point n = 4·b + j at weight row h is Σ_{s<1024} Σ_d W[h,d]·x[b, 1024·j+s, d].
  So after the batch's fourth point the buffer holds Σ_{j<4} of the block sums, and since every row t < 4096 is
  1024·j + s for exactly one (j, s), that is the sum over all rows (addition on the extended reals is commutative and
  associative, 0 its unit).  Only the fourth points write back, each to row b of the [8,1,24] array, and the eight rows
  tile it.
-/
import proofs.«110294_j17282948399130_1_alg».proof.Proof.Names
import proofs.«110294_j17282948399130_1_alg».proof.Proof.Blocks0
import proofs.«110294_j17282948399130_1_alg».proof.Proof.Pieces0
import proofs.«110294_j17282948399130_1_alg».proof.Proof.Pay0
import Idealize.ShloMosaic.Lib.Pipeline.Value

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

variable (V : (c : Dev nD) → (b : Ref sig .tc) → Buf (Elt Ideal) ((c : Thread nD τ).loc b))

namespace Final0_45

/-! ## Indices and the regrouping of rows into blocks -/

/-- An index of a [1,1,24] block is (0, 0, its last coordinate). -/
theorem idx_unit (y : S1x1x24.Idx) : y = ix3 (0 : Fin 1) (0 : Fin 1) (y 2) := by
  funext a
  match a with
  | ⟨0, _⟩ => exact Subsingleton.elim (α := Fin 1) _ _
  | ⟨1, _⟩ => exact Subsingleton.elim (α := Fin 1) _ _
  | ⟨2, _⟩ => rfl

/-- Row t < 4096 is row s of block j for exactly one (j, s): t = 1024·j + s. -/
def rowEquiv : Fin 4 × Fin 1024 ≃ Fin 4096 where
  toFun p := ⟨1024 * p.1.val + p.2.val, by have := p.1.isLt; have := p.2.isLt; omega⟩
  invFun t := (⟨t.val / 1024, by have := t.isLt; omega⟩, ⟨t.val % 1024, by omega⟩)
  left_inv p := by
    have h1 := p.1.isLt
    have h2 := p.2.isLt
    refine Prod.ext (Fin.ext ?_) (Fin.ext ?_)
    · show (1024 * p.1.val + p.2.val) / 1024 = p.1.val; omega
    · show (1024 * p.1.val + p.2.val) % 1024 = p.2.val; omega
  right_inv t := by
    refine Fin.ext ?_
    show 1024 * (t.val / 1024) + t.val % 1024 = t.val; omega

/-- A sum over the 4096 rows is the sum over the four blocks of the sums over each block's 1024 rows. -/
theorem sum_rows (f : Fin 4096 → EReal) :
    ∑ t : Fin 4096, f t = ∑ j : Fin 4, ∑ s : Fin 1024, f (rowEquiv (j, s)) :=
  ((Fintype.sum_equiv rowEquiv (fun p => f (rowEquiv p)) f fun _ => rfl).symm).trans
    (Fintype.sum_prod_type (fun p : Fin 4 × Fin 1024 => f (rowEquiv p)))

/-! ## The first running sum (window 4) -/

/-- The addend of point n at weight row h: the sum over the block's 1024 rows of the row's projection onto weight row h,
    read through the arrays (zero past the grid, where it is never used). -/
def add4 (c : Dev nD) (n : ℕ) (h : Fin 24) : EReal :=
  if hn : n < cfg0.N then
    ∑ s : Fin 1024, ∑ d : Fin 2048, w1arr0 V c (ix2 h d) * xarr0 V c (ix3 (bOf0 ⟨n, hn⟩) (rowOf0 ⟨n, hn⟩ s) d)
  else 0

/-- What a point's body leaves at weight row h over what the buffer held: that plus the point's addend. -/
theorem pay_blk4 (c : Dev nD) (t : Fin cfg0.N) (acc : Vec Ideal S1x1x24 .f32) (h : Fin 24) :
    k0_pay6 (xblk0 V c t) (w1blk0 V c t) acc (ix3 (0 : Fin 1) (0 : Fin 1) h)
      = acc (ix3 (0 : Fin 1) (0 : Fin 1) h) + add4 V c t.val h := by
  rw [pay6_0_apply, w1blk0_eq]
  unfold add4
  rw [dif_pos t.isLt]
  refine congrArg _ (Finset.sum_congr rfl fun s _ => Finset.sum_congr rfl fun d _ => ?_)
  rw [xblk0_apply]

/-- The buffer's contents after point n. -/
def run4 (c : Dev nD) : (n : ℕ) → n < cfg0.N → Vec Ideal S1x1x24 .f32 :=
  fun n h => (outsAt0 V c n h).2.1
/-- What a batch's first point leaves: the body's update of the zero block. -/
def reset4 (c : Dev nD) : (n : ℕ) → n < cfg0.N → Vec Ideal S1x1x24 .f32 :=
  fun n h => k0_pay6 (xblk0 V c ⟨n, h⟩) (w1blk0 V c ⟨n, h⟩) (k0_pay1 (F := Ideal))
/-- What a later point leaves: the body's update of what the point before left. -/
def step4 (c : Dev nD) : (n : ℕ) → n < cfg0.N → Vec Ideal S1x1x24 .f32 → Vec Ideal S1x1x24 .f32 :=
  fun n h acc => k0_pay6 (xblk0 V c ⟨n, h⟩) (w1blk0 V c ⟨n, h⟩) acc

theorem run4_reset (c : Dev nD) (n : ℕ) (h : n < cfg0.N) (h0 : n % 4 = 0) : run4 V c n h = reset4 V c n h := by
  unfold run4 reset4
  rw [outsAt0_A V c ⟨n, h⟩ h0]
  dsimp only
  exact out0_A_4_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk0 V c 0 ⟨n, h⟩) (iblk0 V c 1 ⟨n, h⟩) (iblk0 V c 2 ⟨n, h⟩)

theorem run4_step (c : Dev nD) (n : ℕ) (h : n + 1 < cfg0.N) (hB : ¬(n + 1) % 4 = 0) :
    run4 V c (n + 1) h = step4 V c (n + 1) h (run4 V c n (Nat.lt_of_succ_lt h)) := by
  unfold run4 step4
  rw [outsAt0_B V c ⟨n + 1, h⟩ hB]
  dsimp only
  exact out0_B_4_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h)).2.1 (outsAt0 V c n (Nat.lt_of_succ_lt h)).2.2

/-- The fold of a batch from its first point 4·b, after j more points, at weight row h: the addends of points 4·b … 4·b + j. -/
theorem acc4_apply (c : Dev nD) (b : ℕ) : ∀ (j : ℕ) (h' : 4 * b + j < cfg0.N) (h : Fin 24),
    Pipeline.accAt (reset4 V c) (step4 V c) (4 * b) j h' (ix3 (0 : Fin 1) (0 : Fin 1) h)
      = ∑ s ∈ Finset.range (j + 1), add4 V c (4 * b + s) h
  | 0, h', h => by
    refine (pay_blk4 V c ⟨4 * b, h'⟩ (k0_pay1 (F := Ideal)) h).trans ?_
    rw [pay1_0_apply, zero_add, Finset.sum_range_one]
    rfl
  | j + 1, h', h => by
    refine (pay_blk4 V c ⟨4 * b + (j + 1), h'⟩
      (Pipeline.accAt (reset4 V c) (step4 V c) (4 * b) j (Nat.lt_of_succ_lt h')) h).trans ?_
    rw [acc4_apply c b j (Nat.lt_of_succ_lt h') h, Finset.sum_range_succ _ (j + 1)]

/-- A batch's four addends make the sum over all its rows. -/
theorem batch4 (c : Dev nD) (b : Fin 8) (h : Fin 24) :
    ∑ s ∈ Finset.range 4, add4 V c (4 * b.val + s) h
      = ∑ t : Fin 4096, ∑ d : Fin 2048, w1arr0 V c (ix2 h d) * xarr0 V c (ix3 b t d) := by
  have hN : cfg0.N = 32 := N_0
  rw [← Fin.sum_univ_eq_sum_range (fun s => add4 V c (4 * b.val + s) h) 4,
    sum_rows (fun t => ∑ d : Fin 2048, w1arr0 V c (ix2 h d) * xarr0 V c (ix3 b t d))]
  refine Finset.sum_congr rfl fun j _ => ?_
  have hj := j.isLt
  have hb := b.isLt
  have hn : 4 * b.val + j.val < cfg0.N := by omega
  unfold add4
  rw [dif_pos hn]
  refine Finset.sum_congr rfl fun s _ => Finset.sum_congr rfl fun d _ => ?_
  have e1 : bOf0 ⟨4 * b.val + j.val, hn⟩ = b := Fin.ext (by show (4 * b.val + j.val) / 4 = b.val; omega)
  have e2 : rowOf0 ⟨4 * b.val + j.val, hn⟩ s = rowEquiv (j, s) :=
    Fin.ext (by show 1024 * ((4 * b.val + j.val) % 4) + s.val = 1024 * j.val + s.val; omega)
  rw [e1, e2]

/-- After a batch's fourth point the buffer holds, at weight row h, the sum over all the batch's rows. -/
theorem run4_last (c : Dev nD) (t : Fin cfg0.N) (h3 : t.val % 4 = 3) (h : Fin 24) :
    (outsAt0 V c t.val t.isLt).2.1 (ix3 (0 : Fin 1) (0 : Fin 1) h)
      = ∑ r : Fin 4096, ∑ d : Fin 2048, w1arr0 V c (ix2 h d) * xarr0 V c (ix3 (bOf0 t) r d) := by
  have hN : cfg0.N = 32 := N_0
  have ht := t.isLt
  have h' : 4 * (t.val / 4) + t.val % 4 < cfg0.N := by omega
  have e := Pipeline.eq_accAt_of_mod (run4 V c) 4 (reset4 V c) (step4 V c)
    (fun n h h0 => run4_reset V c n h h0) (fun n h hB => run4_step V c n h hB) (by decide) t.val t.isLt h'
  refine (congrFun e (ix3 (0 : Fin 1) (0 : Fin 1) h)).trans ?_
  rw [acc4_apply V c (t.val / 4) (t.val % 4) h' h, h3]
  exact batch4 V c (bOf0 t) h

/-! ## The first sum's array after the run -/

/-- Entry (b, 0, h) of the first sum's [8,1,24] array: the sum over all rows of batch b. -/
def total4 (c : Dev nD) (b : Fin 8) (h : Fin 24) : EReal :=
  ∑ t : Fin 4096, ∑ d : Fin 2048, w1arr0 V c (ix2 h d) * xarr0 V c (ix3 b t d)
/-- The whole array, as one function of its index. -/
abbrev whole4 (c : Dev nD) : Vec Ideal S8x1x24 .f32 := fun i => total4 V c (i 0) (i 2)

/-- The block index of window 4 at point t is (t / 4, 0, 0): the batch's row of the array. -/
theorem idx4 : ∀ t : Fin cfg0.N, win0_4.index t (0 : Fin 3) = t.val / 4 ∧ win0_4.index t (1 : Fin 3) = 0
    ∧ win0_4.index t (2 : Fin 3) = 0 :=
  (by decide +kernel : ∀ t : Fin grid0.N, win0_4.index t (0 : Fin 3) = t.val / 4 ∧ win0_4.index t (1 : Fin 3) = 0
    ∧ win0_4.index t (2 : Fin 3) = 0)

/-- What a batch's fourth point writes back is its block — row t / 4 — of that array. -/
theorem flushed4_eq (c : Dev nD) (t : Fin cfg0.N) (hf : (cfg0.win 4).flush t = true) :
    (dat0 V c).flushed 4 t = ((cfg0.win 4).blk t).view.read (Elt Ideal) (whole4 V c) := by
  have h3 : t.val % 4 = 3 := (flush0_4 t).mp hf
  show (cfg0.win 4).cut (grid0.coords t) ((dat0 V c).after 4 t) = _
  rw [after0_4]
  funext j
  show (outsAt0 V c t.val t.isLt).2.1 (win0_4.xinj (grid0.coords t) j)
    = whole4 V c (((cfg0.win 4).blk t).view.emb j)
  obtain ⟨i0, i1, i2⟩ := idx4 t
  have hj0 : (j 0).val < 1 := (j 0).isLt
  have hj1 : (j 1).val < 1 := (j 1).isLt
  have hj2 : (j 2).val < 24 := (j 2).isLt
  have e0 : (win0_4.xinj (grid0.coords t) j : S1x1x24.Idx)
      = ix3 (0 : Fin 1) (0 : Fin 1) (⟨(j 2).val, hj2⟩ : Fin 24) := by
    funext a
    apply Fin.ext
    match a with
    | ⟨0, _⟩ => show (j 0).val = 0; omega
    | ⟨1, _⟩ => show (j 1).val = 0; omega
    | ⟨2, _⟩ => rfl
  have e1 : (((cfg0.win 4).blk t).view.emb j : S8x1x24.Idx)
      = ix3 (bOf0 t) (0 : Fin 1) (⟨(j 2).val, hj2⟩ : Fin 24) := by
    funext a
    apply Fin.ext
    match a with
    | ⟨0, _⟩ => show win0_4.index t (0 : Fin 3) * 1 + 1 * (j 0).val = t.val / 4; omega
    | ⟨1, _⟩ => show win0_4.index t (1 : Fin 3) * 1 + 1 * (j 1).val = 0; omega
    | ⟨2, _⟩ => show win0_4.index t (2 : Fin 3) * 24 + 1 * (j 2).val = (j 2).val; omega
  rw [e0, e1]
  exact run4_last V c t h3 _

/-! ## The second running sum (window 5) -/

/-- The addend of point n at weight row h: the sum over the block's 1024 rows of the row's projection onto weight row h,
    read through the arrays (zero past the grid, where it is never used). -/
def add5 (c : Dev nD) (n : ℕ) (h : Fin 24) : EReal :=
  if hn : n < cfg0.N then
    ∑ s : Fin 1024, ∑ d : Fin 2048, w2arr0 V c (ix2 h d) * xarr0 V c (ix3 (bOf0 ⟨n, hn⟩) (rowOf0 ⟨n, hn⟩ s) d)
  else 0

/-- What a point's body leaves at weight row h over what the buffer held: that plus the point's addend. -/
theorem pay_blk5 (c : Dev nD) (t : Fin cfg0.N) (acc : Vec Ideal S1x1x24 .f32) (h : Fin 24) :
    k0_pay7 (xblk0 V c t) (w2blk0 V c t) acc (ix3 (0 : Fin 1) (0 : Fin 1) h)
      = acc (ix3 (0 : Fin 1) (0 : Fin 1) h) + add5 V c t.val h := by
  rw [pay7_0_apply, w2blk0_eq]
  unfold add5
  rw [dif_pos t.isLt]
  refine congrArg _ (Finset.sum_congr rfl fun s _ => Finset.sum_congr rfl fun d _ => ?_)
  rw [xblk0_apply]

/-- The buffer's contents after point n. -/
def run5 (c : Dev nD) : (n : ℕ) → n < cfg0.N → Vec Ideal S1x1x24 .f32 :=
  fun n h => (outsAt0 V c n h).2.2
/-- What a batch's first point leaves: the body's update of the zero block. -/
def reset5 (c : Dev nD) : (n : ℕ) → n < cfg0.N → Vec Ideal S1x1x24 .f32 :=
  fun n h => k0_pay7 (xblk0 V c ⟨n, h⟩) (w2blk0 V c ⟨n, h⟩) (k0_pay2 (F := Ideal))
/-- What a later point leaves: the body's update of what the point before left. -/
def step5 (c : Dev nD) : (n : ℕ) → n < cfg0.N → Vec Ideal S1x1x24 .f32 → Vec Ideal S1x1x24 .f32 :=
  fun n h acc => k0_pay7 (xblk0 V c ⟨n, h⟩) (w2blk0 V c ⟨n, h⟩) acc

theorem run5_reset (c : Dev nD) (n : ℕ) (h : n < cfg0.N) (h0 : n % 4 = 0) : run5 V c n h = reset5 V c n h := by
  unfold run5 reset5
  rw [outsAt0_A V c ⟨n, h⟩ h0]
  dsimp only
  exact out0_A_5_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk0 V c 0 ⟨n, h⟩) (iblk0 V c 1 ⟨n, h⟩) (iblk0 V c 2 ⟨n, h⟩)

theorem run5_step (c : Dev nD) (n : ℕ) (h : n + 1 < cfg0.N) (hB : ¬(n + 1) % 4 = 0) :
    run5 V c (n + 1) h = step5 V c (n + 1) h (run5 V c n (Nat.lt_of_succ_lt h)) := by
  unfold run5 step5
  rw [outsAt0_B V c ⟨n + 1, h⟩ hB]
  dsimp only
  exact out0_B_5_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h)).2.1 (outsAt0 V c n (Nat.lt_of_succ_lt h)).2.2

/-- The fold of a batch from its first point 4·b, after j more points, at weight row h: the addends of points 4·b … 4·b + j. -/
theorem acc5_apply (c : Dev nD) (b : ℕ) : ∀ (j : ℕ) (h' : 4 * b + j < cfg0.N) (h : Fin 24),
    Pipeline.accAt (reset5 V c) (step5 V c) (4 * b) j h' (ix3 (0 : Fin 1) (0 : Fin 1) h)
      = ∑ s ∈ Finset.range (j + 1), add5 V c (4 * b + s) h
  | 0, h', h => by
    refine (pay_blk5 V c ⟨4 * b, h'⟩ (k0_pay2 (F := Ideal)) h).trans ?_
    rw [pay2_0_apply, zero_add, Finset.sum_range_one]
    rfl
  | j + 1, h', h => by
    refine (pay_blk5 V c ⟨4 * b + (j + 1), h'⟩
      (Pipeline.accAt (reset5 V c) (step5 V c) (4 * b) j (Nat.lt_of_succ_lt h')) h).trans ?_
    rw [acc5_apply c b j (Nat.lt_of_succ_lt h') h, Finset.sum_range_succ _ (j + 1)]

/-- A batch's four addends make the sum over all its rows. -/
theorem batch5 (c : Dev nD) (b : Fin 8) (h : Fin 24) :
    ∑ s ∈ Finset.range 4, add5 V c (4 * b.val + s) h
      = ∑ t : Fin 4096, ∑ d : Fin 2048, w2arr0 V c (ix2 h d) * xarr0 V c (ix3 b t d) := by
  have hN : cfg0.N = 32 := N_0
  rw [← Fin.sum_univ_eq_sum_range (fun s => add5 V c (4 * b.val + s) h) 4,
    sum_rows (fun t => ∑ d : Fin 2048, w2arr0 V c (ix2 h d) * xarr0 V c (ix3 b t d))]
  refine Finset.sum_congr rfl fun j _ => ?_
  have hj := j.isLt
  have hb := b.isLt
  have hn : 4 * b.val + j.val < cfg0.N := by omega
  unfold add5
  rw [dif_pos hn]
  refine Finset.sum_congr rfl fun s _ => Finset.sum_congr rfl fun d _ => ?_
  have e1 : bOf0 ⟨4 * b.val + j.val, hn⟩ = b := Fin.ext (by show (4 * b.val + j.val) / 4 = b.val; omega)
  have e2 : rowOf0 ⟨4 * b.val + j.val, hn⟩ s = rowEquiv (j, s) :=
    Fin.ext (by show 1024 * ((4 * b.val + j.val) % 4) + s.val = 1024 * j.val + s.val; omega)
  rw [e1, e2]

/-- After a batch's fourth point the buffer holds, at weight row h, the sum over all the batch's rows. -/
theorem run5_last (c : Dev nD) (t : Fin cfg0.N) (h3 : t.val % 4 = 3) (h : Fin 24) :
    (outsAt0 V c t.val t.isLt).2.2 (ix3 (0 : Fin 1) (0 : Fin 1) h)
      = ∑ r : Fin 4096, ∑ d : Fin 2048, w2arr0 V c (ix2 h d) * xarr0 V c (ix3 (bOf0 t) r d) := by
  have hN : cfg0.N = 32 := N_0
  have ht := t.isLt
  have h' : 4 * (t.val / 4) + t.val % 4 < cfg0.N := by omega
  have e := Pipeline.eq_accAt_of_mod (run5 V c) 4 (reset5 V c) (step5 V c)
    (fun n h h0 => run5_reset V c n h h0) (fun n h hB => run5_step V c n h hB) (by decide) t.val t.isLt h'
  refine (congrFun e (ix3 (0 : Fin 1) (0 : Fin 1) h)).trans ?_
  rw [acc5_apply V c (t.val / 4) (t.val % 4) h' h, h3]
  exact batch5 V c (bOf0 t) h

/-! ## The second sum's array after the run -/

/-- Entry (b, 0, h) of the second sum's [8,1,24] array: the sum over all rows of batch b. -/
def total5 (c : Dev nD) (b : Fin 8) (h : Fin 24) : EReal :=
  ∑ t : Fin 4096, ∑ d : Fin 2048, w2arr0 V c (ix2 h d) * xarr0 V c (ix3 b t d)
/-- The whole array, as one function of its index. -/
abbrev whole5 (c : Dev nD) : Vec Ideal S8x1x24 .f32 := fun i => total5 V c (i 0) (i 2)

/-- The block index of window 5 at point t is (t / 4, 0, 0): the batch's row of the array. -/
theorem idx5 : ∀ t : Fin cfg0.N, win0_5.index t (0 : Fin 3) = t.val / 4 ∧ win0_5.index t (1 : Fin 3) = 0
    ∧ win0_5.index t (2 : Fin 3) = 0 :=
  (by decide +kernel : ∀ t : Fin grid0.N, win0_5.index t (0 : Fin 3) = t.val / 4 ∧ win0_5.index t (1 : Fin 3) = 0
    ∧ win0_5.index t (2 : Fin 3) = 0)

/-- What a batch's fourth point writes back is its block — row t / 4 — of that array. -/
theorem flushed5_eq (c : Dev nD) (t : Fin cfg0.N) (hf : (cfg0.win 5).flush t = true) :
    (dat0 V c).flushed 5 t = ((cfg0.win 5).blk t).view.read (Elt Ideal) (whole5 V c) := by
  have h3 : t.val % 4 = 3 := (flush0_5 t).mp hf
  show (cfg0.win 5).cut (grid0.coords t) ((dat0 V c).after 5 t) = _
  rw [after0_5]
  funext j
  show (outsAt0 V c t.val t.isLt).2.2 (win0_5.xinj (grid0.coords t) j)
    = whole5 V c (((cfg0.win 5).blk t).view.emb j)
  obtain ⟨i0, i1, i2⟩ := idx5 t
  have hj0 : (j 0).val < 1 := (j 0).isLt
  have hj1 : (j 1).val < 1 := (j 1).isLt
  have hj2 : (j 2).val < 24 := (j 2).isLt
  have e0 : (win0_5.xinj (grid0.coords t) j : S1x1x24.Idx)
      = ix3 (0 : Fin 1) (0 : Fin 1) (⟨(j 2).val, hj2⟩ : Fin 24) := by
    funext a
    apply Fin.ext
    match a with
    | ⟨0, _⟩ => show (j 0).val = 0; omega
    | ⟨1, _⟩ => show (j 1).val = 0; omega
    | ⟨2, _⟩ => rfl
  have e1 : (((cfg0.win 5).blk t).view.emb j : S8x1x24.Idx)
      = ix3 (bOf0 t) (0 : Fin 1) (⟨(j 2).val, hj2⟩ : Fin 24) := by
    funext a
    apply Fin.ext
    match a with
    | ⟨0, _⟩ => show win0_5.index t (0 : Fin 3) * 1 + 1 * (j 0).val = t.val / 4; omega
    | ⟨1, _⟩ => show win0_5.index t (1 : Fin 3) * 1 + 1 * (j 1).val = 0; omega
    | ⟨2, _⟩ => show win0_5.index t (2 : Fin 3) * 24 + 1 * (j 2).val = (j 2).val; omega
  rw [e0, e1]
  exact run5_last V c t h3 _

end Final0_45

open Final0_45

/-! ## The two arrays after the run, entry by entry -/

theorem final0_4_apply (c : Dev nD) (b : Fin 8) (h : Fin 24) :
    ((dat0 V c).arrAt 4 cfg0.N : Vec Ideal S8x1x24 .f32) (ix3 b (0 : Fin 1) h)
      = ∑ t : Fin 4096, ∑ d : Fin 2048, w1arr0 V c (ix2 h d) * xarr0 V c (ix3 b t d) := by
  have hN : cfg0.N = 32 := N_0
  have hb := b.isLt
  have hlt : 4 * b.val + 3 < cfg0.N := by omega
  -- the point that covers row b is the batch's fourth, 4·b + 3
  obtain ⟨i0, i1, i2⟩ : win0_4.index ⟨4 * b.val + 3, hlt⟩ (0 : Fin 3) = (4 * b.val + 3) / 4
      ∧ win0_4.index ⟨4 * b.val + 3, hlt⟩ (1 : Fin 3) = 0 ∧ win0_4.index ⟨4 * b.val + 3, hlt⟩ (2 : Fin 3) = 0 :=
    idx4 ⟨4 * b.val + 3, hlt⟩
  have hh := h.isLt
  exact (dat0 V c).arrAt_apply_of_mem 4 (whole4 V c) (flushed4_eq V c) cfg0.N ⟨4 * b.val + 3, hlt⟩
    (ix3 b (0 : Fin 1) h) hlt ((flush0_4 _).mpr (by show (4 * b.val + 3) % 4 = 3; omega))
    (by
      show ix3 b (0 : Fin 1) h ∈ ((View.whole main_v0_1).slice (win0_4.rect ⟨4 * b.val + 3, hlt⟩)).set
      rw [View.set_slice_whole, Rect.mem_set_unit]
      intro a
      match a with
      | ⟨0, _⟩ =>
        show win0_4.index ⟨4 * b.val + 3, hlt⟩ (0 : Fin 3) * 1 ≤ b.val
          ∧ b.val < win0_4.index ⟨4 * b.val + 3, hlt⟩ (0 : Fin 3) * 1 + 1
        omega
      | ⟨1, _⟩ =>
        show win0_4.index ⟨4 * b.val + 3, hlt⟩ (1 : Fin 3) * 1 ≤ 0
          ∧ 0 < win0_4.index ⟨4 * b.val + 3, hlt⟩ (1 : Fin 3) * 1 + 1
        omega
      | ⟨2, _⟩ =>
        show win0_4.index ⟨4 * b.val + 3, hlt⟩ (2 : Fin 3) * 24 ≤ h.val
          ∧ h.val < win0_4.index ⟨4 * b.val + 3, hlt⟩ (2 : Fin 3) * 24 + 24
        omega)

theorem final0_5_apply (c : Dev nD) (b : Fin 8) (h : Fin 24) :
    ((dat0 V c).arrAt 5 cfg0.N : Vec Ideal S8x1x24 .f32) (ix3 b (0 : Fin 1) h)
      = ∑ t : Fin 4096, ∑ d : Fin 2048, w2arr0 V c (ix2 h d) * xarr0 V c (ix3 b t d) := by
  have hN : cfg0.N = 32 := N_0
  have hb := b.isLt
  have hlt : 4 * b.val + 3 < cfg0.N := by omega
  -- the point that covers row b is the batch's fourth, 4·b + 3
  obtain ⟨i0, i1, i2⟩ : win0_5.index ⟨4 * b.val + 3, hlt⟩ (0 : Fin 3) = (4 * b.val + 3) / 4
      ∧ win0_5.index ⟨4 * b.val + 3, hlt⟩ (1 : Fin 3) = 0 ∧ win0_5.index ⟨4 * b.val + 3, hlt⟩ (2 : Fin 3) = 0 :=
    idx5 ⟨4 * b.val + 3, hlt⟩
  have hh := h.isLt
  exact (dat0 V c).arrAt_apply_of_mem 5 (whole5 V c) (flushed5_eq V c) cfg0.N ⟨4 * b.val + 3, hlt⟩
    (ix3 b (0 : Fin 1) h) hlt ((flush0_5 _).mpr (by show (4 * b.val + 3) % 4 = 3; omega))
    (by
      show ix3 b (0 : Fin 1) h ∈ ((View.whole main_v0_2).slice (win0_5.rect ⟨4 * b.val + 3, hlt⟩)).set
      rw [View.set_slice_whole, Rect.mem_set_unit]
      intro a
      match a with
      | ⟨0, _⟩ =>
        show win0_5.index ⟨4 * b.val + 3, hlt⟩ (0 : Fin 3) * 1 ≤ b.val
          ∧ b.val < win0_5.index ⟨4 * b.val + 3, hlt⟩ (0 : Fin 3) * 1 + 1
        omega
      | ⟨1, _⟩ =>
        show win0_5.index ⟨4 * b.val + 3, hlt⟩ (1 : Fin 3) * 1 ≤ 0
          ∧ 0 < win0_5.index ⟨4 * b.val + 3, hlt⟩ (1 : Fin 3) * 1 + 1
        omega
      | ⟨2, _⟩ =>
        show win0_5.index ⟨4 * b.val + 3, hlt⟩ (2 : Fin 3) * 24 ≤ h.val
          ∧ h.val < win0_5.index ⟨4 * b.val + 3, hlt⟩ (2 : Fin 3) * 24 + 24
        omega)

end Cert.KernelIdeal.KV

end
-- ==== Proof.Blocks1.lean ====
/-
  Region 1's input blocks read through the arrays: column s of the block of the stored projection at point
  t = 8·b + j is column 512·j + s of batch b, and the two matrices' blocks are the whole matrices.
-/
import proofs.«110294_j17282948399130_1_alg».proof.Proof.Names
import Idealize.ShloMosaic.Lib.Pipeline.Value

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

variable (V : (c : Dev nD) → (b : Ref sig .tc) → Buf (Elt Ideal) ((c : Thread nD τ).loc b))

/-- The block index maps of the three input windows, decided once over the grid: at point t = 8·b + j the block of
    the stored projection is block (b, 0, j), and the two matrices' one block is block (0, 0). -/
theorem idx1_in : ∀ t : Fin cfg1.N,
    (win1_0.index t 0 = t.val / 8 ∧ win1_0.index t 1 = 0 ∧ win1_0.index t 2 = t.val % 8)
    ∧ (win1_1.index t 0 = 0 ∧ win1_1.index t 1 = 0)
    ∧ (win1_2.index t 0 = 0 ∧ win1_2.index t 1 = 0) :=
  (by decide +kernel : ∀ t : Fin grid1.N,
    (win1_0.index t 0 = t.val / 8 ∧ win1_0.index t 1 = 0 ∧ win1_0.index t 2 = t.val % 8)
    ∧ (win1_1.index t 0 = 0 ∧ win1_1.index t 1 = 0)
    ∧ (win1_2.index t 0 = 0 ∧ win1_2.index t 1 = 0))

/-- Entry (0, h, s) of the block at t sits in the array at block index × block size + its own coordinate on each
    axis: (t/8)·1 + 0, 0·24 + h, (t%8)·512 + s. -/
theorem pblk1_apply (c : Dev nD) (t : Fin cfg1.N) (h : Fin 24) (s : Fin 512) :
    pblk1 V c t (ix3 (0 : Fin 1) h s) = parr1 V c (ix3 (bOf1 t) h (rowOf1 t s)) := by
  obtain ⟨⟨e0, e1, e2⟩, -, -⟩ := idx1_in t
  show V c main_v0_0 (((cfg1.win 0).blk t).view.emb (ix3 (0 : Fin 1) h s)) = V c main_v0_0 (ix3 (bOf1 t) h (rowOf1 t s))
  congr 1
  funext a
  apply Fin.ext
  match a with
  | ⟨0, _⟩ => show win1_0.index t 0 * 1 + 1 * 0 = t.val / 8; omega
  | ⟨1, _⟩ => show win1_0.index t 1 * 24 + 1 * h.val = h.val; omega
  | ⟨2, _⟩ => show win1_0.index t 2 * 512 + 1 * s.val = 512 * (t.val % 8) + s.val; omega

/-- The 24 × 24 matrix's one block is the matrix: block index (0, 0), so entry y of the block is entry y of the array. -/
theorem eblk1_eq (c : Dev nD) (t : Fin cfg1.N) : eblk1 V c t = earr1 V c := by
  obtain ⟨-, ⟨e0, e1⟩, -⟩ := idx1_in t
  funext y
  show V c main_v15 (((cfg1.win 1).blk t).view.emb y) = V c main_v15 y
  congr 1
  funext a
  apply Fin.ext
  match a with
  | ⟨0, _⟩ => show win1_1.index t 0 * 24 + 1 * (y 0).val = (y 0).val; omega
  | ⟨1, _⟩ => show win1_1.index t 1 * 24 + 1 * (y 1).val = (y 1).val; omega

/-- The output weights' one block is the whole 2048 × 24 matrix, the same way. -/
theorem wblk1_eq (c : Dev nD) (t : Fin cfg1.N) : wblk1 V c t = warr1 V c := by
  obtain ⟨-, -, ⟨e0, e1⟩⟩ := idx1_in t
  funext y
  show V c main_arg4 (((cfg1.win 2).blk t).view.emb y) = V c main_arg4 y
  congr 1
  funext a
  apply Fin.ext
  match a with
  | ⟨0, _⟩ => show win1_2.index t 0 * 2048 + 1 * (y 0).val = (y 0).val; omega
  | ⟨1, _⟩ => show win1_2.index t 1 * 24 + 1 * (y 1).val = (y 1).val; omega

end Cert.KernelIdeal.KV

end
-- ==== Proof.Pieces1.lean ====
/-
  What each control case of region 1's body leaves in its two output buffers, as the body's payload terms.
  Case A (first column block of a batch): the running sum is reset to zero and then takes this block's column sums.
  Case B (middle blocks): it takes this block's column sums over what the block before left.
  Case C (last block of a batch): as B, and the total is then divided by the number of rows.
  In every case the modulation block is stored whole.

  Each output's value is read off the stores the body made: a store over the whole buffer, made last, leaves its payload
  whatever was stored before; a load of the whole buffer after such a store reads that payload; and a load of a whole input
  buffer reads its contents.  The payloads stay folded.
-/
import proofs.«110294_j17282948399130_1_alg».proof.Proof.Gen.KernelIdeal.Frame
import Idealize.ShloMosaic.Lib.Pipeline.Value
import Idealize.ShloMosaic.Lib.Tactic
import Idealize.ShloMosaic.Lib.ValueIdx

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

variable {F : FTy → Type} [FloatOps F]

/-- The offsets of a rank-3 whole-buffer rectangle are all zero. -/
theorem hz3_r1 : (![0, 0, 0] : Fin 3 → Nat) = fun _ => 0 := funext fun a => by fin_cases a <;> rfl
/-- The offsets of a rank-2 whole-buffer rectangle are all zero. -/
theorem hz2_r1 : (![0, 0] : Fin 2 → Nat) = fun _ => 0 := funext fun a => by fin_cases a <;> rfl

/-- Case A, modulation block: one store over the whole buffer; its payload's three loads read the whole input buffers. -/
theorem out1_A_3_eq (c : Dev nD) (i : grid1.Coords) (a2 : Memref sig .tc .vmem S1x24x512 .bf16) (h2 : a2.IsWhole) (a3 : Memref sig .tc .vmem S24x24 .f32) (h3 : a3.IsWhole) (a4 : Memref sig .tc .vmem S2048x24 .f32) (h4 : a4.IsWhole) (a5 : Memref sig .tc .vmem S1x512x2048 .f32) (h5 : a5.IsWhole) (a6 : Memref sig .tc .vmem S1x1x24 .f32) (h6 : a6.IsWhole) (hc0 : cond1_0 i) (hc1 : ¬cond1_1 i) (x0 : Vec F S1x24x512 .bf16) (x1 : Vec F S24x24 .f32) (x2 : Vec F S2048x24 .f32) :
    out1_A_3 c i a2 h2 a3 h3 a4 h4 a5 h5 a6 h6 hc0 hc1 x0 x1 x2 = k1_pay3 x0 x1 x2 := by
  unfold out1_A_3
  rw [View.read_writes_eq_canon _ _ _ (cover1_A_3 c i a2 h2 a3 h3 a4 h4 a5 h5 a6 h6 hc0 hc1 x0 x1 x2)]
  unfold kernelRun1_A
  dsimp only
  sl_unfold_words
  rw [View.canon_unit_zero hz3_r1]
  simp only [View.readAt_eq_ld, h2.read_unread, h3.read_unread, h4.read_unread, View.ld_unit_zero (S := S1x24x512) hz3_r1, View.ld_unit_zero (S := S24x24) hz2_r1, View.ld_unit_zero (S := S2048x24) hz2_r1]

/-- Case A, running sum: the zero block is stored over the whole buffer, read back whole, and the last store — which covers
    the buffer — leaves the zero block plus this block's column sums. -/
theorem out1_A_4_eq (c : Dev nD) (i : grid1.Coords) (a2 : Memref sig .tc .vmem S1x24x512 .bf16) (h2 : a2.IsWhole) (a3 : Memref sig .tc .vmem S24x24 .f32) (h3 : a3.IsWhole) (a4 : Memref sig .tc .vmem S2048x24 .f32) (h4 : a4.IsWhole) (a5 : Memref sig .tc .vmem S1x512x2048 .f32) (h5 : a5.IsWhole) (a6 : Memref sig .tc .vmem S1x1x24 .f32) (h6 : a6.IsWhole) (hc0 : cond1_0 i) (hc1 : ¬cond1_1 i) (x0 : Vec F S1x24x512 .bf16) (x1 : Vec F S24x24 .f32) (x2 : Vec F S2048x24 .f32) :
    out1_A_4 c i a2 h2 a3 h3 a4 h4 a5 h5 a6 h6 hc0 hc1 x0 x1 x2 = k1_pay4 x0 x1 (k1_pay1 (F := F)) := by
  unfold out1_A_4
  rw [View.read_writes_eq_canon _ _ _ (cover1_A_4 c i a2 h2 a3 h3 a4 h4 a5 h5 a6 h6 hc0 hc1 x0 x1 x2)]
  unfold kernelRun1_A
  dsimp only
  sl_unfold_words
  rw [View.canon_cons_unit_zero (S := S1x1x24) hz3_r1, View.readCov_unit_zero (S := S1x1x24) _ hz3_r1]
  simp only [View.readAt_eq_ld, h2.read_unread, h3.read_unread, h6.read_unread, View.ld_unit_zero (S := S1x24x512) hz3_r1, View.ld_unit_zero (S := S24x24) hz2_r1, View.ld_unit_zero (S := S1x1x24) hz3_r1]

/-- Case B, modulation block: as in case A. -/
theorem out1_B_3_eq (c : Dev nD) (i : grid1.Coords) (a2 : Memref sig .tc .vmem S1x24x512 .bf16) (h2 : a2.IsWhole) (a3 : Memref sig .tc .vmem S24x24 .f32) (h3 : a3.IsWhole) (a4 : Memref sig .tc .vmem S2048x24 .f32) (h4 : a4.IsWhole) (a5 : Memref sig .tc .vmem S1x512x2048 .f32) (h5 : a5.IsWhole) (a6 : Memref sig .tc .vmem S1x1x24 .f32) (h6 : a6.IsWhole) (hc0 : ¬cond1_0 i) (hc1 : ¬cond1_1 i) (x0 : Vec F S1x24x512 .bf16) (x1 : Vec F S24x24 .f32) (x2 : Vec F S2048x24 .f32) (xo4 : Vec F S1x1x24 .f32) :
    out1_B_3 c i a2 h2 a3 h3 a4 h4 a5 h5 a6 h6 hc0 hc1 x0 x1 x2 xo4 = k1_pay3 x0 x1 x2 := by
  unfold out1_B_3
  rw [View.read_writes_eq_canon _ _ _ (cover1_B_3 c i a2 h2 a3 h3 a4 h4 a5 h5 a6 h6 hc0 hc1 x0 x1 x2 xo4)]
  unfold kernelRun1_B
  dsimp only
  sl_unfold_words
  rw [View.canon_unit_zero hz3_r1]
  simp only [View.readAt_eq_ld, h2.read_unread, h3.read_unread, h4.read_unread, View.ld_unit_zero (S := S1x24x512) hz3_r1, View.ld_unit_zero (S := S24x24) hz2_r1, View.ld_unit_zero (S := S2048x24) hz2_r1]

/-- Case B, running sum: one covering store, whose payload adds this block's column sums to what the buffer held. -/
theorem out1_B_4_eq (c : Dev nD) (i : grid1.Coords) (a2 : Memref sig .tc .vmem S1x24x512 .bf16) (h2 : a2.IsWhole) (a3 : Memref sig .tc .vmem S24x24 .f32) (h3 : a3.IsWhole) (a4 : Memref sig .tc .vmem S2048x24 .f32) (h4 : a4.IsWhole) (a5 : Memref sig .tc .vmem S1x512x2048 .f32) (h5 : a5.IsWhole) (a6 : Memref sig .tc .vmem S1x1x24 .f32) (h6 : a6.IsWhole) (hc0 : ¬cond1_0 i) (hc1 : ¬cond1_1 i) (x0 : Vec F S1x24x512 .bf16) (x1 : Vec F S24x24 .f32) (x2 : Vec F S2048x24 .f32) (xo4 : Vec F S1x1x24 .f32) :
    out1_B_4 c i a2 h2 a3 h3 a4 h4 a5 h5 a6 h6 hc0 hc1 x0 x1 x2 xo4 = k1_pay4 x0 x1 xo4 := by
  unfold out1_B_4
  rw [View.read_writes_eq_canon _ _ _ (cover1_B_4 c i a2 h2 a3 h3 a4 h4 a5 h5 a6 h6 hc0 hc1 x0 x1 x2 xo4)]
  unfold kernelRun1_B
  dsimp only
  sl_unfold_words
  rw [View.canon_unit_zero hz3_r1]
  simp only [View.readAt_eq_ld, h2.read_unread, h3.read_unread, h6.read_unread, View.ld_unit_zero (S := S1x24x512) hz3_r1, View.ld_unit_zero (S := S24x24) hz2_r1, View.ld_unit_zero (S := S1x1x24) hz3_r1]

/-- Case C, modulation block: as in case A. -/
theorem out1_C_3_eq (c : Dev nD) (i : grid1.Coords) (a2 : Memref sig .tc .vmem S1x24x512 .bf16) (h2 : a2.IsWhole) (a3 : Memref sig .tc .vmem S24x24 .f32) (h3 : a3.IsWhole) (a4 : Memref sig .tc .vmem S2048x24 .f32) (h4 : a4.IsWhole) (a5 : Memref sig .tc .vmem S1x512x2048 .f32) (h5 : a5.IsWhole) (a6 : Memref sig .tc .vmem S1x1x24 .f32) (h6 : a6.IsWhole) (hc0 : ¬cond1_0 i) (hc1 : cond1_1 i) (x0 : Vec F S1x24x512 .bf16) (x1 : Vec F S24x24 .f32) (x2 : Vec F S2048x24 .f32) (xo4 : Vec F S1x1x24 .f32) :
    out1_C_3 c i a2 h2 a3 h3 a4 h4 a5 h5 a6 h6 hc0 hc1 x0 x1 x2 xo4 = k1_pay3 x0 x1 x2 := by
  unfold out1_C_3
  rw [View.read_writes_eq_canon _ _ _ (cover1_C_3 c i a2 h2 a3 h3 a4 h4 a5 h5 a6 h6 hc0 hc1 x0 x1 x2 xo4)]
  unfold kernelRun1_C
  dsimp only
  sl_unfold_words
  rw [View.canon_unit_zero hz3_r1]
  simp only [View.readAt_eq_ld, h2.read_unread, h3.read_unread, h4.read_unread, View.ld_unit_zero (S := S1x24x512) hz3_r1, View.ld_unit_zero (S := S24x24) hz2_r1, View.ld_unit_zero (S := S2048x24) hz2_r1]

/-- Case C, running sum: the accumulating store covers the buffer, the total is read back whole, and the last store —
    covering again — leaves that total divided by the number of rows. -/
theorem out1_C_4_eq (c : Dev nD) (i : grid1.Coords) (a2 : Memref sig .tc .vmem S1x24x512 .bf16) (h2 : a2.IsWhole) (a3 : Memref sig .tc .vmem S24x24 .f32) (h3 : a3.IsWhole) (a4 : Memref sig .tc .vmem S2048x24 .f32) (h4 : a4.IsWhole) (a5 : Memref sig .tc .vmem S1x512x2048 .f32) (h5 : a5.IsWhole) (a6 : Memref sig .tc .vmem S1x1x24 .f32) (h6 : a6.IsWhole) (hc0 : ¬cond1_0 i) (hc1 : cond1_1 i) (x0 : Vec F S1x24x512 .bf16) (x1 : Vec F S24x24 .f32) (x2 : Vec F S2048x24 .f32) (xo4 : Vec F S1x1x24 .f32) :
    out1_C_4 c i a2 h2 a3 h3 a4 h4 a5 h5 a6 h6 hc0 hc1 x0 x1 x2 xo4 = k1_pay5 (k1_pay4 x0 x1 xo4) := by
  unfold out1_C_4
  rw [View.read_writes_eq_canon _ _ _ (cover1_C_4 c i a2 h2 a3 h3 a4 h4 a5 h5 a6 h6 hc0 hc1 x0 x1 x2 xo4)]
  unfold kernelRun1_C
  dsimp only
  sl_unfold_words
  rw [View.canon_cons_unit_zero (S := S1x1x24) hz3_r1, View.readCov_unit_zero (S := S1x1x24) _ hz3_r1]
  simp only [View.readAt_eq_ld, h2.read_unread, h3.read_unread, h6.read_unread, View.ld_unit_zero (S := S1x24x512) hz3_r1, View.ld_unit_zero (S := S24x24) hz2_r1, View.ld_unit_zero (S := S1x1x24) hz3_r1]

end Cert.KernelIdeal.KV

end
-- ==== Proof.Pay1.lean ====
/-
  Region 1's payloads read at an index, over the extended reals.  With p a block of the stored projection (24 × 512),
  E the 24 × 24 matrix and W the output weights (2048 × 24): the hidden block at (s, e) is Σ_h p[h,s]·E[h,e]; the
  modulation at (s, d) is Σ_e hidden[s,e]·W[d,e]; the running sum at e takes Σ_s hidden[s,e] over what it held; the
  closing step divides by 4096.
-/
import proofs.«110294_j17282948399130_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

/-! ## The first product: contraction of axis 0 of the 24 × 512 block with axis 0 of the 24 × 24 matrix -/

theorem lhs_hid_0 (i : S512x24.Idx) (q : dot_S24x512_S24x24_S512x24_0_0_1_1_n_n.contr.Idx) :
    (dot_S24x512_S24x24_S512x24_0_0_1_1_n_n.lhsIdx i q 0).val = (q ⟨0, by decide⟩).val :=
  dot_S24x512_S24x24_S512x24_0_0_1_1_n_n.lhsIdx_val_of_single rfl i q
theorem lhs_hid_1 (i : S512x24.Idx) (q : dot_S24x512_S24x24_S512x24_0_0_1_1_n_n.contr.Idx) :
    (dot_S24x512_S24x24_S512x24_0_0_1_1_n_n.lhsIdx i q 1).val = (i 0).val := by
  unfold DotDims.lhsIdx
  rw [dif_neg (show ¬(1 : Fin S24x512.rank) ∈ dot_S24x512_S24x24_S512x24_0_0_1_1_n_n.lhsBatch by decide), dif_pos (show (1 : Fin S24x512.rank) ∈ dot_S24x512_S24x24_S512x24_0_0_1_1_n_n.lhsNonContracting by decide)]
  rfl
theorem rhs_hid_0 (i : S512x24.Idx) (q : dot_S24x512_S24x24_S512x24_0_0_1_1_n_n.contr.Idx) :
    (dot_S24x512_S24x24_S512x24_0_0_1_1_n_n.rhsIdx i q 0).val = (q ⟨0, by decide⟩).val :=
  dot_S24x512_S24x24_S512x24_0_0_1_1_n_n.rhsIdx_val_of_single rfl i q
theorem rhs_hid_1 (i : S512x24.Idx) (q : dot_S24x512_S24x24_S512x24_0_0_1_1_n_n.contr.Idx) :
    (dot_S24x512_S24x24_S512x24_0_0_1_1_n_n.rhsIdx i q 1).val = (i 1).val := by
  unfold DotDims.rhsIdx
  rw [dif_neg (show ¬(1 : Fin S24x24.rank) ∈ dot_S24x512_S24x24_S512x24_0_0_1_1_n_n.rhsBatch by decide), dif_pos (show (1 : Fin S24x24.rank) ∈ dot_S24x512_S24x24_S512x24_0_0_1_1_n_n.rhsNonContracting by decide)]
  rfl

/-- Into the zero accumulator, the product at (s, e) is Σ_h l[h,s]·r[h,e]. -/
theorem matmul_hid_apply (l : FVec Ideal S24x512 .bf16) (r : FVec Ideal S24x24 .bf16) (s : Fin 512) (e : Fin 24) :
    matmul dot_S24x512_S24x24_S512x24_0_0_1_1_n_n none l r (constant (F := Ideal) S512x24 .f32 0x00000000#32) (ix2 s e)
      = ∑ h : Fin 24, l (ix2 h s) * r (ix2 h e) := by
  refine (Ideal.matmul_constant_zero_apply dot_S24x512_S24x24_S512x24_0_0_1_1_n_n none l r (ix2 s e)).trans ?_
  rw [← Equiv.sum_comp (ValueIdx.contrEquiv1 dot_S24x512_S24x24_S512x24_0_0_1_1_n_n 24 rfl rfl).symm]
  refine Finset.sum_congr rfl fun k _ => ?_
  have hk := ValueIdx.contrEquiv1_symm_val dot_S24x512_S24x24_S512x24_0_0_1_1_n_n 24 rfl rfl k
  have el : dot_S24x512_S24x24_S512x24_0_0_1_1_n_n.lhsIdx (ix2 s e) ((ValueIdx.contrEquiv1 dot_S24x512_S24x24_S512x24_0_0_1_1_n_n 24 rfl rfl).symm k) = ix2 k s := funext fun a => Fin.ext (by
    match a with
    | ⟨0, _⟩ => exact (lhs_hid_0 _ _).trans hk
    | ⟨1, _⟩ => exact lhs_hid_1 _ _)
  have er : dot_S24x512_S24x24_S512x24_0_0_1_1_n_n.rhsIdx (ix2 s e) ((ValueIdx.contrEquiv1 dot_S24x512_S24x24_S512x24_0_0_1_1_n_n 24 rfl rfl).symm k) = ix2 k e := funext fun a => Fin.ext (by
    match a with
    | ⟨0, _⟩ => exact (rhs_hid_0 _ _).trans hk
    | ⟨1, _⟩ => exact rhs_hid_1 _ _)
  rw [el, er]

/-! ## The second product: contraction of axis 1 of the 512 × 24 hidden block with axis 1 of the 2048 × 24 weights -/

theorem lhs_mod_0 (i : S512x2048.Idx) (q : dot_S512x24_S2048x24_S512x2048_1_1_0_0_n_n.contr.Idx) :
    (dot_S512x24_S2048x24_S512x2048_1_1_0_0_n_n.lhsIdx i q 0).val = (i 0).val := by
  unfold DotDims.lhsIdx
  rw [dif_neg (show ¬(0 : Fin S512x24.rank) ∈ dot_S512x24_S2048x24_S512x2048_1_1_0_0_n_n.lhsBatch by decide), dif_pos (show (0 : Fin S512x24.rank) ∈ dot_S512x24_S2048x24_S512x2048_1_1_0_0_n_n.lhsNonContracting by decide)]
  rfl
theorem lhs_mod_1 (i : S512x2048.Idx) (q : dot_S512x24_S2048x24_S512x2048_1_1_0_0_n_n.contr.Idx) :
    (dot_S512x24_S2048x24_S512x2048_1_1_0_0_n_n.lhsIdx i q 1).val = (q ⟨0, by decide⟩).val :=
  dot_S512x24_S2048x24_S512x2048_1_1_0_0_n_n.lhsIdx_val_of_single rfl i q
theorem rhs_mod_0 (i : S512x2048.Idx) (q : dot_S512x24_S2048x24_S512x2048_1_1_0_0_n_n.contr.Idx) :
    (dot_S512x24_S2048x24_S512x2048_1_1_0_0_n_n.rhsIdx i q 0).val = (i 1).val := by
  unfold DotDims.rhsIdx
  rw [dif_neg (show ¬(0 : Fin S2048x24.rank) ∈ dot_S512x24_S2048x24_S512x2048_1_1_0_0_n_n.rhsBatch by decide), dif_pos (show (0 : Fin S2048x24.rank) ∈ dot_S512x24_S2048x24_S512x2048_1_1_0_0_n_n.rhsNonContracting by decide)]
  rfl
theorem rhs_mod_1 (i : S512x2048.Idx) (q : dot_S512x24_S2048x24_S512x2048_1_1_0_0_n_n.contr.Idx) :
    (dot_S512x24_S2048x24_S512x2048_1_1_0_0_n_n.rhsIdx i q 1).val = (q ⟨0, by decide⟩).val :=
  dot_S512x24_S2048x24_S512x2048_1_1_0_0_n_n.rhsIdx_val_of_single rfl i q

/-- Into the zero accumulator, the product at (s, d) is Σ_e l[s,e]·r[d,e]. -/
theorem matmul_mod_apply (l : FVec Ideal S512x24 .bf16) (r : FVec Ideal S2048x24 .bf16) (s : Fin 512) (d : Fin 2048) :
    matmul dot_S512x24_S2048x24_S512x2048_1_1_0_0_n_n none l r (constant (F := Ideal) S512x2048 .f32 0x00000000#32) (ix2 s d)
      = ∑ e : Fin 24, l (ix2 s e) * r (ix2 d e) := by
  refine (Ideal.matmul_constant_zero_apply dot_S512x24_S2048x24_S512x2048_1_1_0_0_n_n none l r (ix2 s d)).trans ?_
  rw [← Equiv.sum_comp (ValueIdx.contrEquiv1 dot_S512x24_S2048x24_S512x2048_1_1_0_0_n_n 24 rfl rfl).symm]
  refine Finset.sum_congr rfl fun k _ => ?_
  have hk := ValueIdx.contrEquiv1_symm_val dot_S512x24_S2048x24_S512x2048_1_1_0_0_n_n 24 rfl rfl k
  have el : dot_S512x24_S2048x24_S512x2048_1_1_0_0_n_n.lhsIdx (ix2 s d) ((ValueIdx.contrEquiv1 dot_S512x24_S2048x24_S512x2048_1_1_0_0_n_n 24 rfl rfl).symm k) = ix2 s k := funext fun a => Fin.ext (by
    match a with
    | ⟨0, _⟩ => exact lhs_mod_0 _ _
    | ⟨1, _⟩ => exact (lhs_mod_1 _ _).trans hk)
  have er : dot_S512x24_S2048x24_S512x2048_1_1_0_0_n_n.rhsIdx (ix2 s d) ((ValueIdx.contrEquiv1 dot_S512x24_S2048x24_S512x2048_1_1_0_0_n_n 24 rfl rfl).symm k) = ix2 d k := funext fun a => Fin.ext (by
    match a with
    | ⟨0, _⟩ => exact rhs_mod_0 _ _
    | ⟨1, _⟩ => exact (rhs_mod_1 _ _).trans hk)
  rw [el, er]

/-! ## Layout: a vector of 24 laid out as 1 × 1 × 24 -/

/-- A `[a]` array cast to `[1, 1, a]` reads, at `(u, w, i)`, the operand at `i`: the row-major positions agree. -/
theorem shapeCast_a_11a_apply {α : Type} {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw, Nat.zero_mul, Nat.zero_add])

/-- The sum over axis 0 of a 512 × 24 array, at e, is Σ_s of the array at (s, e). -/
theorem sum_rows_apply (src : FVec Ideal S512x24 .f32) (hφ : FKind.Formats .f32)
    (hacc : (0x00000000#32 : BitVec 32) = 0x00000000#32) (e : Fin 24) :
    multiReduction (F := Ideal) .add [0] S24 src 0x00000000#32 reduces_S512x24_S24 hφ hacc (ix1 e) = ∑ s : Fin 512, src (ix2 s e) := by
  refine (Ideal.multiReduction_add_single src 0x00000000#32 reduces_S512x24_S24 hφ hacc (ix1 e)).trans ?_
  refine Finset.sum_congr rfl fun s _ => congrArg src (funext fun a => Fin.ext (by
    match a with
    | ⟨0, _⟩ => rfl
    | ⟨1, _⟩ => rfl))

/-! ## The payloads -/

theorem pay1_1_apply (j : S1x1x24.Idx) : k1_pay1 (F := Ideal) j = 0 := by
  unfold k1_pay1
  exact Ideal.ofBits_zero_f32

theorem pay2_1_apply (v3 : Vec Ideal S1x24x512 .bf16) (v5 : Vec Ideal S24x24 .f32) (s : Fin 512) (e : Fin 24) :
    k1_pay2 v3 v5 (ix2 s e) = ∑ h : Fin 24, v3 (ix3 (0 : Fin 1) h s) * v5 (ix2 h e) := by
  unfold k1_pay2
  refine (matmul_hid_apply _ _ s e).trans ?_
  refine Finset.sum_congr rfl fun h _ => ?_
  rw [ValueIdx.shapeCast_1ab_ab_apply, ValueIdx.truncf_apply, shapeCast_self]

theorem pay3_1_apply (v3 : Vec Ideal S1x24x512 .bf16) (v5 : Vec Ideal S24x24 .f32) (v8 : Vec Ideal S2048x24 .f32) (s : Fin 512) (d : Fin 2048) :
    k1_pay3 v3 v5 v8 (ix3 (0 : Fin 1) s d)
      = ∑ e : Fin 24, (∑ h : Fin 24, v3 (ix3 (0 : Fin 1) h s) * v5 (ix2 h e)) * v8 (ix2 d e) := by
  unfold k1_pay3
  refine (ValueIdx.shapeCast_ab_1ab_apply _ _ (0 : Fin 1) s d).trans ?_
  refine (matmul_mod_apply _ _ s d).trans ?_
  refine Finset.sum_congr rfl fun e _ => ?_
  rw [ValueIdx.truncf_apply, ValueIdx.truncf_apply, pay2_1_apply]

theorem pay4_1_apply (v3 : Vec Ideal S1x24x512 .bf16) (v5 : Vec Ideal S24x24 .f32) (v16 : Vec Ideal S1x1x24 .f32) (e : Fin 24) :
    k1_pay4 v3 v5 v16 (ix3 (0 : Fin 1) (0 : Fin 1) e)
      = v16 (ix3 (0 : Fin 1) (0 : Fin 1) e) + ∑ s : Fin 512, ∑ h : Fin 24, v3 (ix3 (0 : Fin 1) h s) * v5 (ix2 h e) := by
  unfold k1_pay4
  rw [ValueIdx.addf_apply, shapeCast_self]
  congr 1
  refine (shapeCast_a_11a_apply _ _ (0 : Fin 1) (0 : Fin 1) e).trans ?_
  refine (sum_rows_apply _ _ _ e).trans ?_
  exact Finset.sum_congr rfl fun s _ => pay2_1_apply v3 v5 s e

theorem pay5_1_apply (v25 : Vec Ideal S1x1x24 .f32) (e : Fin 24) :
    k1_pay5 v25 (ix3 (0 : Fin 1) (0 : Fin 1) e)
      = Ideal.div (v25 (ix3 (0 : Fin 1) (0 : Fin 1) e)) (Ideal.ofBits .f32 0x45800000#32) := by
  unfold k1_pay5
  rw [ValueIdx.divf_apply, shapeCast_self]
  rfl

end Cert.KernelIdeal.KV

end
-- ==== Proof.Final1_3.lean ====
/-
  Region 1's first output after the run: entry (b, t, d) is Σ_e (Σ_h P[b,h,t]·E[h,e])·W[d,e], with P the stored projection,
  E the 24 × 24 matrix and W the output weights.  Each grid point writes its own 512 × 2048 block, and the blocks tile the array.
-/
import proofs.«110294_j17282948399130_1_alg».proof.Proof.Names
import proofs.«110294_j17282948399130_1_alg».proof.Proof.Blocks1
import proofs.«110294_j17282948399130_1_alg».proof.Proof.Pieces1
import proofs.«110294_j17282948399130_1_alg».proof.Proof.Pay1
import Idealize.ShloMosaic.Lib.Pipeline.Value

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

variable (V : (c : Dev nD) → (b : Ref sig .tc) → Buf (Elt Ideal) ((c : Thread nD τ).loc b))

/-- The modulation at batch b, row r, feature d: Σ_e (Σ_h P[b,h,r]·E[h,e])·W[d,e]. -/
def modAt (P : Vec Ideal S8x24x4096 .bf16) (E : Vec Ideal S24x24 .f32) (W : Vec Ideal S2048x24 .f32)
    (b : Fin 8) (r : Fin 4096) (d : Fin 2048) : EReal :=
  ∑ e : Fin 24, (∑ h : Fin 24, P (ix3 b h r) * E (ix2 h e)) * W (ix2 d e)

/-- The whole first output array as one function of the arrays region 1 reads. -/
abbrev modArr (c : Dev nD) : Vec Ideal S8x4096x2048 .f32 :=
  fun i => modAt (parr1 V c) (earr1 V c) (warr1 V c) (i 0) (i 1) (i 2)

/-- The output window's block index map, decided once over the grid: at point t = 8·b + j the block is (b, j, 0). -/
theorem idx1_3 : ∀ t : Fin cfg1.N, win1_3.index t 0 = t.val / 8 ∧ win1_3.index t 1 = t.val % 8 ∧ win1_3.index t 2 = 0 :=
  (by decide +kernel : ∀ t : Fin grid1.N, win1_3.index t 0 = t.val / 8 ∧ win1_3.index t 1 = t.val % 8 ∧ win1_3.index t 2 = 0)

/-- What the body leaves in the first output's buffer at point t, whichever control case t falls in: the modulation
    payload of the three input blocks at t (the three cases differ only in the running sum, the second output). -/
theorem out1_3_at (c : Dev nD) (t : Fin cfg1.N) :
    (outsAt1 V c t.val t.isLt).1 = k1_pay3 (pblk1 V c t) (eblk1 V c t) (wblk1 V c t) := by
  by_cases h0 : t.val % 8 = 0
  · have h1 : ¬t.val % 8 = 7 := by omega
    rw [outsAt1_A V c t h0 h1]
    dsimp only
    exact out1_A_3_eq (F := Ideal) c (grid1.coords t) (ms1_0 t) (hs1_0 t) (ms1_1 t) (hs1_1 t) (ms1_2 t) (hs1_2 t) (ms1_3 t) (hs1_3 t)
      (ms1_4 t) (hs1_4 t) ((hcond1_0 t).mpr h0) (fun h => h1 ((hcond1_1 t).mp h)) (pblk1 V c t) (eblk1 V c t) (wblk1 V c t)
  · by_cases h1 : t.val % 8 = 7
    · rw [outsAt1_C V c t h0 h1]
      dsimp only
      exact out1_C_3_eq (F := Ideal) c (grid1.coords t) (ms1_0 t) (hs1_0 t) (ms1_1 t) (hs1_1 t) (ms1_2 t) (hs1_2 t) (ms1_3 t) (hs1_3 t)
        (ms1_4 t) (hs1_4 t) (fun h => h0 ((hcond1_0 t).mp h)) ((hcond1_1 t).mpr h1) (pblk1 V c t) (eblk1 V c t) (wblk1 V c t)
        (outsAt1 V c (t.val - 1) (Nat.lt_of_le_of_lt (Nat.sub_le _ _) t.isLt)).2
    · rw [outsAt1_B V c t h0 h1]
      dsimp only
      exact out1_B_3_eq (F := Ideal) c (grid1.coords t) (ms1_0 t) (hs1_0 t) (ms1_1 t) (hs1_1 t) (ms1_2 t) (hs1_2 t) (ms1_3 t) (hs1_3 t)
        (ms1_4 t) (hs1_4 t) (fun h => h0 ((hcond1_0 t).mp h)) (fun h => h1 ((hcond1_1 t).mp h)) (pblk1 V c t) (eblk1 V c t) (wblk1 V c t)
        (outsAt1 V c (t.val - 1) (Nat.lt_of_le_of_lt (Nat.sub_le _ _) t.isLt)).2

/-- The payload at point t = 8·b + j, read at (0, s, d): the modulation of batch b at row 512·j + s — the block of the
    stored projection read through the array, the two matrices whole. -/
theorem pay3_at (c : Dev nD) (t : Fin cfg1.N) (s : Fin 512) (d : Fin 2048) :
    k1_pay3 (pblk1 V c t) (eblk1 V c t) (wblk1 V c t) (ix3 (0 : Fin 1) s d)
      = modAt (parr1 V c) (earr1 V c) (warr1 V c) (bOf1 t) (rowOf1 t s) d := by
  refine (pay3_1_apply (pblk1 V c t) (eblk1 V c t) (wblk1 V c t) s d).trans ?_
  unfold modAt
  refine Finset.sum_congr rfl fun e _ => ?_
  refine congrArg₂ (· * ·) (Finset.sum_congr rfl fun h _ => ?_) (congrFun (wblk1_eq V c t) (ix2 d e))
  exact congrArg₂ (· * ·) (pblk1_apply V c t h s) (congrFun (eblk1_eq V c t) (ix2 h e))

/-- WHAT POINT t WRITES BACK is block t of the whole-array function: entry (0, s, d) of the block sits at
    (t/8, 512·(t%8) + s, d) of the array. -/
theorem flushed1_3_eq (c : Dev nD) (t : Fin cfg1.N) :
    (dat1 V c).flushed 3 t = ((cfg1.win 3).blk t).view.read (Elt Ideal) (modArr V c) := by
  show (cfg1.win 3).cut (grid1.coords t) ((dat1 V c).after 3 t) = _
  rw [after1_3, out1_3_at]
  obtain ⟨e0, e1, e2⟩ := idx1_3 t
  funext y
  obtain ⟨a, s, d, rfl⟩ : ∃ (a : Fin 1) (s : Fin 512) (d : Fin 2048), y = ix3 a s d := ⟨y 0, y 1, y 2, ValueIdx.eq_ix3 y⟩
  obtain rfl : a = 0 := Subsingleton.elim _ _
  show k1_pay3 (pblk1 V c t) (eblk1 V c t) (wblk1 V c t) (ix3 (0 : Fin 1) s d)
    = modAt (parr1 V c) (earr1 V c) (warr1 V c) ((((cfg1.win 3).blk t).view.emb (ix3 (0 : Fin 1) s d)) 0)
        ((((cfg1.win 3).blk t).view.emb (ix3 (0 : Fin 1) s d)) 1) ((((cfg1.win 3).blk t).view.emb (ix3 (0 : Fin 1) s d)) 2)
  rw [pay3_at]
  have a0 : (((cfg1.win 3).blk t).view.emb (ix3 (0 : Fin 1) s d)) 0 = bOf1 t :=
    Fin.ext (by show win1_3.index t 0 * 1 + 1 * 0 = t.val / 8; omega)
  have a1 : (((cfg1.win 3).blk t).view.emb (ix3 (0 : Fin 1) s d)) 1 = rowOf1 t s :=
    Fin.ext (by show win1_3.index t 1 * 512 + 1 * s.val = 512 * (t.val % 8) + s.val; omega)
  have a2 : (((cfg1.win 3).blk t).view.emb (ix3 (0 : Fin 1) s d)) 2 = d :=
    Fin.ext (by show win1_3.index t 2 * 2048 + 1 * d.val = d.val; omega)
  rw [a0, a1, a2]

/-- An index of the array is in point t's block iff each coordinate is in the block's range on its axis. -/
theorem mem_blk1_3 (t : Fin cfg1.N) (i : S8x4096x2048.Idx) :
    i ∈ ((cfg1.win 3).blk t).view.set
      ↔ ∀ a : Fin 3, win1_3.index t a * S1x512x2048.size a ≤ (i a).val
          ∧ (i a).val < win1_3.index t a * S1x512x2048.size a + S1x512x2048.size a := by
  show i ∈ ((View.whole main_v16_0).slice (win1_3.rect t)).set ↔ _
  rw [View.set_slice_whole, Rect.mem_set_unit]
  exact Iff.rfl

/-- The blocks tile the array: entry (b, r, d) is in the block of point 8·b + r / 512. -/
theorem cover1_3 (i : S8x4096x2048.Idx) :
    ∃ t : Fin cfg1.N, (cfg1.win 3).flush t = true ∧ i ∈ ((cfg1.win 3).blk t).view.set := by
  have h0 : (i 0).val < 8 := (i 0).isLt
  have h1 : (i 1).val < 4096 := (i 1).isLt
  have h2 : (i 2).val < 2048 := (i 2).isLt
  obtain ⟨t, ht⟩ : ∃ t : Fin cfg1.N, t.val = 8 * (i 0).val + (i 1).val / 512 :=
    ⟨⟨8 * (i 0).val + (i 1).val / 512, lt_of_lt_of_eq (by omega) (show 64 = cfg1.N from N_1.symm)⟩, rfl⟩
  obtain ⟨e0, e1, e2⟩ := idx1_3 t
  refine ⟨t, flush1_3 t, ?_⟩
  rw [mem_blk1_3]
  intro a
  match a with
  | ⟨0, _⟩ => show win1_3.index t 0 * 1 ≤ (i 0).val ∧ (i 0).val < win1_3.index t 0 * 1 + 1; omega
  | ⟨1, _⟩ => show win1_3.index t 1 * 512 ≤ (i 1).val ∧ (i 1).val < win1_3.index t 1 * 512 + 512; omega
  | ⟨2, _⟩ => show win1_3.index t 2 * 2048 ≤ (i 2).val ∧ (i 2).val < win1_3.index t 2 * 2048 + 2048; omega

/-- So the first output array ends holding the whole-array function. -/
theorem final1_3 (c : Dev nD) : (dat1 V c).arrAt 3 cfg1.N = modArr V c :=
  (dat1 V c).arrAt_eq_of_cover 3 (modArr V c) (fun t _ => flushed1_3_eq V c t) cover1_3

theorem final1_3_apply (c : Dev nD) (b : Fin 8) (t : Fin 4096) (d : Fin 2048) :
    ((dat1 V c).arrAt 3 cfg1.N : Vec Ideal S8x4096x2048 .f32) (ix3 b t d)
      = ∑ e : Fin 24, (∑ h : Fin 24, parr1 V c (ix3 b h t) * earr1 V c (ix2 h e)) * warr1 V c (ix2 d e) :=
  congrFun (final1_3 V c) (ix3 b t d)

end Cert.KernelIdeal.KV

end
-- ==== Proof.Final1_4.lean ====
/-
  Region 1's second output after the run: entry (b, 0, e) is (Σ_t Σ_h P[b,h,t]·E[h,e]) / 4096 — the hidden activations
  summed over all 4096 positions of batch b, accumulated over the batch's eight column blocks (reset at the first, divided
  and written back after the eighth).

  The running contents of the accumulator are a fold over each batch's run of eight points: zero plus the first block's
  column sums, then one block's column sums added per point, the eighth point dividing the total by 4096.  Read at an
  entry the fold is a sum of eight block sums; block j of batch b holds columns 512·j … 512·j + 511, so the eight block
  sums regroup (addition of extended reals is associative and commutative) into the sum over all 4096 columns.  Only the
  eighth point of a batch writes back, to block (b, 0, 0) of the array, so entry (b, 0, e) ends at that value.
-/
import proofs.«110294_j17282948399130_1_alg».proof.Proof.Names
import proofs.«110294_j17282948399130_1_alg».proof.Proof.Blocks1
import proofs.«110294_j17282948399130_1_alg».proof.Proof.Pieces1
import proofs.«110294_j17282948399130_1_alg».proof.Proof.Pay1
import Idealize.ShloMosaic.Lib.Pipeline.Value

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3)

variable (V : (c : Dev nD) → (b : Ref sig .tc) → Buf (Elt Ideal) ((c : Thread nD τ).loc b))

/-! ## The running contents as a fold over each batch's eight points -/

/-- What the accumulator's buffer holds after point n. -/
def acc14 (c : Dev nD) (n : ℕ) (h : n < cfg1.N) : Vec Ideal S1x1x24 .f32 := (outsAt1 V c n h).2

/-- The first point of a batch: zero, then this block's column sums. -/
def acc14Reset (c : Dev nD) (n : ℕ) (h : n < cfg1.N) : Vec Ideal S1x1x24 .f32 :=
  k1_pay4 (pblk1 V c ⟨n, h⟩) (eblk1 V c ⟨n, h⟩) (k1_pay1 (F := Ideal))

/-- A later point: this block's column sums over what the point before left; the last point of a batch then divides. -/
def acc14Step (c : Dev nD) (n : ℕ) (h : n < cfg1.N) (x : Vec Ideal S1x1x24 .f32) : Vec Ideal S1x1x24 .f32 :=
  if n % 8 = 7 then k1_pay5 (k1_pay4 (pblk1 V c ⟨n, h⟩) (eblk1 V c ⟨n, h⟩) x)
  else k1_pay4 (pblk1 V c ⟨n, h⟩) (eblk1 V c ⟨n, h⟩) x

theorem acc14_reset (c : Dev nD) (n : ℕ) (h : n < cfg1.N) (h0 : n % 8 = 0) : acc14 V c n h = acc14Reset V c n h := by
  have h1 : ¬n % 8 = 7 := by omega
  unfold acc14 acc14Reset
  rw [outsAt1_A V c ⟨n, h⟩ h0 h1]
  dsimp only
  exact out1_A_4_eq (F := Ideal) c (grid1.coords ⟨n, h⟩) (ms1_0 ⟨n, h⟩) (hs1_0 ⟨n, h⟩) (ms1_1 ⟨n, h⟩) (hs1_1 ⟨n, h⟩)
    (ms1_2 ⟨n, h⟩) (hs1_2 ⟨n, h⟩) (ms1_3 ⟨n, h⟩) (hs1_3 ⟨n, h⟩) (ms1_4 ⟨n, h⟩) (hs1_4 ⟨n, h⟩)
    ((hcond1_0 ⟨n, h⟩).mpr h0) (fun hh => h1 ((hcond1_1 ⟨n, h⟩).mp hh)) (iblk1 V c 0 ⟨n, h⟩) (iblk1 V c 1 ⟨n, h⟩) (iblk1 V c 2 ⟨n, h⟩)

theorem acc14_step (c : Dev nD) (n : ℕ) (h : n + 1 < cfg1.N) (h0 : ¬(n + 1) % 8 = 0) :
    acc14 V c (n + 1) h = acc14Step V c (n + 1) h (acc14 V c n (Nat.lt_of_succ_lt h)) := by
  unfold acc14 acc14Step
  by_cases h1 : (n + 1) % 8 = 7
  · rw [if_pos h1, outsAt1_C V c ⟨n + 1, h⟩ h0 h1]
    dsimp only
    exact out1_C_4_eq (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
      (fun hh => h0 ((hcond1_0 ⟨n + 1, h⟩).mp hh)) ((hcond1_1 ⟨n + 1, h⟩).mpr h1) (iblk1 V c 0 ⟨n + 1, h⟩) (iblk1 V c 1 ⟨n + 1, h⟩) (iblk1 V c 2 ⟨n + 1, h⟩)
      (outsAt1 V c n (Nat.lt_of_succ_lt h)).2
  · rw [if_neg h1, outsAt1_B V c ⟨n + 1, h⟩ h0 h1]
    dsimp only
    exact out1_B_4_eq (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
      (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (iblk1 V c 2 ⟨n + 1, h⟩)
      (outsAt1 V c n (Nat.lt_of_succ_lt h)).2

/-- At any point the buffer holds the fold over its batch's run of points up to it. -/
theorem acc14_eq_fold (c : Dev nD) (t : ℕ) (ht : t < cfg1.N) (h' : 8 * (t / 8) + t % 8 < cfg1.N) :
    acc14 V c t ht = Pipeline.accAt (acc14Reset V c) (acc14Step V c) (8 * (t / 8)) (t % 8) h' :=
  Pipeline.eq_accAt_of_mod (acc14 V c) 8 (acc14Reset V c) (acc14Step V c) (fun n h h0 => acc14_reset V c n h h0)
    (fun n h h0 => acc14_step V c n h h0) (by decide) t ht h'

/-! ## The fold at an entry: a sum of block sums -/

/-- An index of the one-row block is its last coordinate. -/
theorem acc14_idx (i : S1x1x24.Idx) : i = ix3 (0 : Fin 1) (0 : Fin 1) (⟨(i 2).val, (i 2).isLt⟩ : Fin 24) := by
  have h0 : (i 0).val < 1 := (i 0).isLt
  have h1 : (i 1).val < 1 := (i 1).isLt
  funext d
  match d with
  | ⟨0, _⟩ => exact Fin.ext (by show (i 0).val = 0; omega)
  | ⟨1, _⟩ => exact Fin.ext (by show (i 1).val = 0; omega)
  | ⟨2, _⟩ => rfl

/-- Point n's addend at column e: the hidden block's column sum, Σ_s Σ_h p[h,s]·E[h,e] (zero past the grid). -/
def acc14M (c : Dev nD) (n : ℕ) (e : Fin 24) : EReal :=
  if h : n < cfg1.N then ∑ s : Fin 512, ∑ hh : Fin 24, pblk1 V c ⟨n, h⟩ (ix3 (0 : Fin 1) hh s) * eblk1 V c ⟨n, h⟩ (ix2 hh e) else 0

/-- The same addend as a function of the block's index. -/
def acc14Mi (c : Dev nD) (n : ℕ) (i : S1x1x24.Idx) : EReal := acc14M V c n (⟨(i 2).val, (i 2).isLt⟩ : Fin 24)

/-- After the seventh point of batch q the buffer holds the sum of the seven blocks' column sums. -/
theorem acc14_fold_six (c : Dev nD) (q : ℕ) (h : 8 * q + 6 < cfg1.N) (e : Fin 24) :
    Pipeline.accAt (acc14Reset V c) (acc14Step V c) (8 * q) 6 h (ix3 (0 : Fin 1) (0 : Fin 1) e)
      = 0 + ∑ s ∈ Finset.range 7, acc14M V c (8 * q + s) e := by
  refine Pipeline.accAt_add_apply (β := EReal) (acc14Reset V c) (acc14Step V c) (fun _ => 0) (acc14Mi V c) (8 * q) 6 ?_ ?_ 6 (le_refl 6) h (ix3 (0 : Fin 1) (0 : Fin 1) e)
  · intro hb i
    rw [acc14_idx i]
    unfold acc14Reset acc14Mi acc14M
    rw [dif_pos hb]
    refine (pay4_1_apply (pblk1 V c ⟨8 * q, hb⟩) (eblk1 V c ⟨8 * q, hb⟩) (k1_pay1 (F := Ideal)) _).trans ?_
    rw [pay1_1_apply]
  · intro n hn x i hlo hhi
    rw [acc14_idx i]
    unfold acc14Step acc14Mi acc14M
    rw [dif_pos hn, if_neg (by omega)]
    exact pay4_1_apply (pblk1 V c ⟨n, hn⟩) (eblk1 V c ⟨n, hn⟩) x _

/-- After the eighth point of batch q the buffer holds the sum of the eight blocks' column sums, divided by the row count. -/
theorem acc14_fold_seven (c : Dev nD) (q : ℕ) (h : 8 * q + 7 < cfg1.N) (e : Fin 24) :
    Pipeline.accAt (acc14Reset V c) (acc14Step V c) (8 * q) 7 h (ix3 (0 : Fin 1) (0 : Fin 1) e)
      = Ideal.div (∑ s ∈ Finset.range 8, acc14M V c (8 * q + s) e) (Ideal.ofBits .f32 0x45800000#32) := by
  have hstep : ∀ x : Vec Ideal S1x1x24 .f32, acc14Step V c (8 * q + 7) h x
      = k1_pay5 (k1_pay4 (pblk1 V c ⟨8 * q + 7, h⟩) (eblk1 V c ⟨8 * q + 7, h⟩) x) := fun x => if_pos (by omega)
  rw [Pipeline.accAt_succ]
  refine (congrFun (hstep _) (ix3 (0 : Fin 1) (0 : Fin 1) e)).trans ?_
  refine (pay5_1_apply _ e).trans ?_
  refine congrArg (fun x => Ideal.div x (Ideal.ofBits .f32 0x45800000#32)) ?_
  refine (pay4_1_apply (pblk1 V c ⟨8 * q + 7, h⟩) (eblk1 V c ⟨8 * q + 7, h⟩) _ e).trans ?_
  rw [acc14_fold_six V c q (Nat.lt_of_succ_lt h) e, zero_add, Finset.sum_range_succ _ 7]
  congr 1
  unfold acc14M
  rw [dif_pos h]

/-! ## Eight blocks of 512 columns are the batch's 4096 columns -/

/-- Column k of batch b against column e of the matrix, Σ_h P[b,h,k]·E[h,e], as a function of every natural k (zero past 4096). -/
def acc14F (c : Dev nD) (b : Fin 8) (e : Fin 24) (k : ℕ) : EReal :=
  if hk : k < 4096 then ∑ hh : Fin 24, parr1 V c (ix3 b hh ⟨k, hk⟩) * earr1 V c (ix2 hh e) else 0

/-- The block at point 8·b + j holds columns 512·j … 512·j + 511 of batch b. -/
theorem acc14M_eq (c : Dev nD) (b : Fin 8) (j : ℕ) (hj : j < 8) (e : Fin 24) :
    acc14M V c (8 * b.val + j) e = ∑ s ∈ Finset.range 512, acc14F V c b e (512 * j + s) := by
  have hN : cfg1.N = 64 := N_1
  have hlt : 8 * b.val + j < cfg1.N := by have := b.isLt; omega
  unfold acc14M
  rw [dif_pos hlt, ← Fin.sum_univ_eq_sum_range (fun s => acc14F V c b e (512 * j + s)) 512]
  refine Finset.sum_congr rfl fun s _ => ?_
  have hs : 512 * j + s.val < 4096 := by have := s.isLt; omega
  unfold acc14F
  rw [dif_pos hs]
  refine Finset.sum_congr rfl fun hh _ => ?_
  have hb : bOf1 ⟨8 * b.val + j, hlt⟩ = b := Fin.ext (by show (8 * b.val + j) / 8 = b.val; omega)
  have hr : rowOf1 ⟨8 * b.val + j, hlt⟩ s = (⟨512 * j + s.val, hs⟩ : Fin 4096) :=
    Fin.ext (by show 512 * ((8 * b.val + j) % 8) + s.val = 512 * j + s.val; omega)
  rw [pblk1_apply, eblk1_eq, hb, hr]

/-- Summing m consecutive runs of n terms is summing the first n·m terms. -/
theorem acc14_sum_blocks (f : ℕ → EReal) (n : ℕ) :
    ∀ m : ℕ, ∑ j ∈ Finset.range m, ∑ s ∈ Finset.range n, f (n * j + s) = ∑ k ∈ Finset.range (n * m), f k
  | 0 => by simp
  | m + 1 => by rw [Finset.sum_range_succ, acc14_sum_blocks f n m, Nat.mul_succ, Finset.sum_range_add]

/-- The eight block sums of batch b add up to the sum over all its 4096 columns. -/
theorem acc14_total (c : Dev nD) (b : Fin 8) (e : Fin 24) :
    ∑ s ∈ Finset.range 8, acc14M V c (8 * b.val + s) e
      = ∑ t : Fin 4096, ∑ hh : Fin 24, parr1 V c (ix3 b hh t) * earr1 V c (ix2 hh e) :=
  calc ∑ s ∈ Finset.range 8, acc14M V c (8 * b.val + s) e
      = ∑ j ∈ Finset.range 8, ∑ s ∈ Finset.range 512, acc14F V c b e (512 * j + s) :=
        Finset.sum_congr rfl fun j hj => acc14M_eq V c b j (Finset.mem_range.mp hj) e
    _ = ∑ k ∈ Finset.range 4096, acc14F V c b e k := acc14_sum_blocks (acc14F V c b e) 512 8
    _ = ∑ t : Fin 4096, acc14F V c b e t.val := (Fin.sum_univ_eq_sum_range (acc14F V c b e) 4096).symm
    _ = ∑ t : Fin 4096, ∑ hh : Fin 24, parr1 V c (ix3 b hh t) * earr1 V c (ix2 hh e) :=
        Finset.sum_congr rfl fun t _ => by unfold acc14F; rw [dif_pos t.isLt]

/-- At the last point of a batch the buffer's entry e is the batch's full sum, divided. -/
theorem acc14_at_flush (c : Dev nD) (t : Fin cfg1.N) (h7 : t.val % 8 = 7) (e : Fin 24) :
    acc14 V c t.val t.isLt (ix3 (0 : Fin 1) (0 : Fin 1) e)
      = Ideal.div (∑ tt : Fin 4096, ∑ hh : Fin 24, parr1 V c (ix3 (bOf1 t) hh tt) * earr1 V c (ix2 hh e))
          (Ideal.ofBits .f32 0x45800000#32) := by
  have hN : cfg1.N = 64 := N_1
  have hlt := t.isLt
  have h' : 8 * (t.val / 8) + t.val % 8 < cfg1.N := by omega
  rw [acc14_eq_fold V c t.val t.isLt h']
  have key : ∀ (j : ℕ) (hj : j = 7) (h'' : 8 * (t.val / 8) + j < cfg1.N),
      Pipeline.accAt (acc14Reset V c) (acc14Step V c) (8 * (t.val / 8)) j h'' (ix3 (0 : Fin 1) (0 : Fin 1) e)
        = Ideal.div (∑ tt : Fin 4096, ∑ hh : Fin 24, parr1 V c (ix3 (bOf1 t) hh tt) * earr1 V c (ix2 hh e))
            (Ideal.ofBits .f32 0x45800000#32) := by
    intro j hj h''
    subst hj
    exact (acc14_fold_seven V c (t.val / 8) h'' e).trans
      (congrArg (fun x => Ideal.div x (Ideal.ofBits .f32 0x45800000#32)) (acc14_total V c (bOf1 t) e))
  exact key _ h7 h'

/-! ## The array after the run -/

/-- What the array ends holding: entry (b, 0, e) is the batch's full sum, divided by the row count. -/
def acc14G (c : Dev nD) : Vec Ideal S8x1x24 .f32 := fun i =>
  Ideal.div (∑ t : Fin 4096, ∑ hh : Fin 24,
      parr1 V c (ix3 (⟨(i 0).val, (i 0).isLt⟩ : Fin 8) hh t) * earr1 V c (ix2 hh (⟨(i 2).val, (i 2).isLt⟩ : Fin 24)))
    (Ideal.ofBits .f32 0x45800000#32)

/-- The accumulator's block index at point t = 8·b + j is (b, 0, 0). -/
theorem acc14_index : ∀ t : Fin cfg1.N, win1_4.index t (0 : Fin 3) = t.val / 8 ∧ win1_4.index t (1 : Fin 3) = 0
    ∧ win1_4.index t (2 : Fin 3) = 0 :=
  (by decide +kernel : ∀ t : Fin grid1.N, win1_4.index t (0 : Fin 3) = t.val / 8 ∧ win1_4.index t (1 : Fin 3) = 0
    ∧ win1_4.index t (2 : Fin 3) = 0)

/-- What a batch's last point writes back is its block of that array. -/
theorem acc14_flushed (c : Dev nD) (t : Fin cfg1.N) (hf : (cfg1.win 4).flush t = true) :
    (dat1 V c).flushed 4 t = ((cfg1.win 4).blk t).view.read (Elt Ideal) (acc14G V c) := by
  have h7 : t.val % 8 = 7 := (flush1_4 t).mp hf
  obtain ⟨i0, i1, i2⟩ := acc14_index t
  show (cfg1.win 4).cut (grid1.coords t) ((dat1 V c).after 4 t) = _
  rw [after1_4]
  funext j
  have hj0 : (j 0).val < 1 := (j 0).isLt
  have hj1 : (j 1).val < 1 := (j 1).isLt
  have hj2 : (j 2).val < 24 := (j 2).isLt
  have hemb : ((cfg1.win 4).blk t).view.emb j = ix3 (bOf1 t) (0 : Fin 1) (⟨(j 2).val, hj2⟩ : Fin 24) := by
    funext a
    apply Fin.ext
    match a with
    | ⟨0, _⟩ => show win1_4.index t (0 : Fin 3) * 1 + 1 * (j 0).val = t.val / 8; omega
    | ⟨1, _⟩ => show win1_4.index t (1 : Fin 3) * 1 + 1 * (j 1).val = 0; omega
    | ⟨2, _⟩ => show win1_4.index t (2 : Fin 3) * 24 + 1 * (j 2).val = (j 2).val; omega
  show acc14 V c t.val t.isLt j = acc14G V c (((cfg1.win 4).blk t).view.emb j)
  rw [hemb]
  exact (congrArg (acc14 V c t.val t.isLt) (acc14_idx j)).trans (acc14_at_flush V c t h7 ⟨(j 2).val, hj2⟩)

theorem final1_4_apply (c : Dev nD) (b : Fin 8) (e : Fin 24) :
    ((dat1 V c).arrAt 4 cfg1.N : Vec Ideal S8x1x24 .f32) (ix3 b (0 : Fin 1) e)
      = Ideal.div (∑ t : Fin 4096, ∑ h : Fin 24, parr1 V c (ix3 b h t) * earr1 V c (ix2 h e)) (Ideal.ofBits .f32 0x45800000#32) := by
  have hN : cfg1.N = 64 := N_1
  have hb := b.isLt
  have hlt : 8 * b.val + 7 < cfg1.N := by omega
  have hf : (cfg1.win 4).flush ⟨8 * b.val + 7, hlt⟩ = true :=
    (flush1_4 ⟨8 * b.val + 7, hlt⟩).mpr (by show (8 * b.val + 7) % 8 = 7; omega)
  obtain ⟨i0, i1, i2⟩ := acc14_index ⟨8 * b.val + 7, hlt⟩
  have i0' : win1_4.index ⟨8 * b.val + 7, hlt⟩ (0 : Fin 3) = b.val := by rw [i0]; show (8 * b.val + 7) / 8 = b.val; omega
  refine ((dat1 V c).arrAt_apply_of_mem 4 (acc14G V c) (acc14_flushed V c) cfg1.N ⟨8 * b.val + 7, hlt⟩
    (ix3 b (0 : Fin 1) e) hlt hf ?_).trans rfl
  show ix3 b (0 : Fin 1) e ∈ ((View.whole main_v16_1).slice (win1_4.rect ⟨8 * b.val + 7, hlt⟩)).set
  rw [View.set_slice_whole, Rect.mem_set_unit]
  intro a
  have he := e.isLt
  match a with
  | ⟨0, _⟩ =>
    show win1_4.index ⟨8 * b.val + 7, hlt⟩ (0 : Fin 3) * 1 ≤ b.val ∧ b.val < win1_4.index ⟨8 * b.val + 7, hlt⟩ (0 : Fin 3) * 1 + 1
    omega
  | ⟨1, _⟩ =>
    show win1_4.index ⟨8 * b.val + 7, hlt⟩ (1 : Fin 3) * 1 ≤ 0 ∧ 0 < win1_4.index ⟨8 * b.val + 7, hlt⟩ (1 : Fin 3) * 1 + 1
    omega
  | ⟨2, _⟩ =>
    show win1_4.index ⟨8 * b.val + 7, hlt⟩ (2 : Fin 3) * 24 ≤ e.val ∧ e.val < win1_4.index ⟨8 * b.val + 7, hlt⟩ (2 : Fin 3) * 24 + 24
    omega

end Cert.KernelIdeal.KV

end
-- ==== Proof.KValue.lean ====
/-
  The value of the idealized kernel program, buffer by buffer along its run, against the reference's stages.

  Region 0 leaves the projection P[b,h,t] = Σ_d W₁[h,d]·x[b,t,d] and the two row-sum arrays Σ_t Σ_d W₁[h,d]·x[b,t,d],
  Σ_t Σ_d W₂[h,d]·x[b,t,d].  The host stretch between the regions forms the 24 × 24 matrix from those sums, the plastic
  weights and the trace: the same operations, in the same order, on the same literals as the reference's, so it is carried
  as ONE function of the two sum arrays and never opened.  Region 1 leaves Σ_e (Σ_h P[b,h,t]·E[h,e])·W_out[d,e] and the mean
  of the hidden activations over the 4096 positions.  Commutativity of the product under the innermost sum is the only law
  between the kernel's and the reference's spellings; sums over a batch's blocks regroup by associativity.  Neither needs
  the inputs to be finite.
-/
import proofs.«110294_j17282948399130_1_alg».proof.Proof.Gen.KernelIdeal.Frame
import proofs.«110294_j17282948399130_1_alg».proof.Proof.Gen.ReferenceIdeal.Read
import proofs.«110294_j17282948399130_1_alg».proof.Proof.Names
import proofs.«110294_j17282948399130_1_alg».proof.Proof.Final0_3
import proofs.«110294_j17282948399130_1_alg».proof.Proof.Final0_45
import proofs.«110294_j17282948399130_1_alg».proof.Proof.Final1_3
import proofs.«110294_j17282948399130_1_alg».proof.Proof.Final1_4
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KV

open Idealize.ShloMosaic Idealize.ShloMosaic.TcCoe Idealize.SL.Sem
open Cert.KernelIdeal Cert.KernelIdeal.Gen
open Idealize.ShloMosaic.ValueIdx (ix1 ix2 ix3 eq_ix2 eq_ix3)

variable (m : (ℓ : Loc nD τ sig) → Buf (Elt Ideal) ℓ) (ρ : Dev nD → PrngReg)

/-! ## The arguments, as the program is launched -/

abbrev a0 (c : Dev nD) : Vec Ideal S8x4096x2048 .f32 := m ((c : Thread nD τ).loc main_arg0)
abbrev a1 (c : Dev nD) : Vec Ideal S24x2048 .f32 := m ((c : Thread nD τ).loc main_arg1)
abbrev a2 (c : Dev nD) : Vec Ideal S24x2048 .f32 := m ((c : Thread nD τ).loc main_arg2)
abbrev a3 (c : Dev nD) : Vec Ideal S24x24 .f32 := m ((c : Thread nD τ).loc main_arg3)
abbrev a4 (c : Dev nD) : Vec Ideal S2048x24 .f32 := m ((c : Thread nD τ).loc main_arg4)
abbrev a5 (c : Dev nD) : Vec Ideal S24x24 .f32 := m ((c : Thread nD τ).loc main_arg5)

/-! ## The host stretch between the regions, as one function -/

/-- The 24 × 24 matrix from the two row-sum arrays, the plastic weights and the trace: the means over the 4096 positions,
    their outer product averaged over the 8 batches, the decayed trace plus the scaled update, added to the weights. -/
def effW (S1 S2 : Vec Ideal S8x24 .f32) (A3 A5 : Vec Ideal S24x24 .f32) : Vec Ideal S24x24 .f32 :=
  addf A3 (addf (mulf A5 (broadcastInDim S24x24 ![] bcast_S_S24x24 (constant (F := Ideal) S_ .f32 0x3F7FBE77#32)))
    (mulf (Host.divf (Host.dotGeneral dot_S8x24_S8x24_S24x24_0_0_1_1_n_n none
        (Host.divf S1 (broadcastInDim S8x24 ![] bcast_S_S8x24 (constant (F := Ideal) S_ .f32 0x45800000#32)))
        (Host.divf S2 (broadcastInDim S8x24 ![] bcast_S_S8x24 (constant (F := Ideal) S_ .f32 0x45800000#32))))
      (broadcastInDim S24x24 ![] bcast_S_S24x24 (constant (F := Ideal) S_ .f32 0x41000000#32)))
     (broadcastInDim S24x24 ![] bcast_S_S24x24 (constant (F := Ideal) S_ .f32 0x3C23D70A#32))))

/-- The reference forms its matrix by the same function of its own two sums. -/
theorem effW_ref (x0 : Vec Ideal S8x4096x2048 .f32) (x1 x2 : Vec Ideal S24x2048 .f32) (x3 x5 : Vec Ideal S24x24 .f32) :
    Cert.ReferenceIdeal.Read.val_main_v16 (F := Ideal) x0 x1 x2 x3 x5
      = effW (Cert.ReferenceIdeal.Read.val_main_v2 (F := Ideal) x0 x1) (Cert.ReferenceIdeal.Read.val_main_v5 (F := Ideal) x0 x2) x3 x5 := rfl

/-! ## The buffers along the run -/

theorem W2_v15 (c : Dev nD) : (W2 m ρ c (Proc.devRef .tc main_v15) : Vec Ideal S24x24 .f32)
    = effW (shapeCast S8x24 (W1 m ρ c (Proc.devRef .tc main_v0_1) : Vec Ideal S8x1x24 .f32) shapeCasts_S8x1x24_S8x24)
        (shapeCast S8x24 (W1 m ρ c (Proc.devRef .tc main_v0_2) : Vec Ideal S8x1x24 .f32) shapeCasts_S8x1x24_S8x24)
        (W1 m ρ c (Proc.devRef .tc main_arg3)) (W1 m ρ c (Proc.devRef .tc main_arg5)) := by
  show StableHlo.after hostOps1 _ (Proc.devRef .tc main_v15) = _
  after_results
  rfl

theorem W2_v0_0 (c : Dev nD) : W2 m ρ c (Proc.devRef .tc main_v0_0) = W1 m ρ c (Proc.devRef .tc main_v0_0) :=
  StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_arg4 (c : Dev nD) : W2 m ρ c (Proc.devRef .tc main_arg4) = W1 m ρ c (Proc.devRef .tc main_arg4) :=
  StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_v16_0 (c : Dev nD) : W4 m ρ c (Proc.devRef .tc main_v16_0) = W3 m ρ c (Proc.devRef .tc main_v16_0) :=
  StableHlo.after_of_forall_not_mem (b := Proc.devRef .tc main_v16_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_v17 (c : Dev nD) : (W4 m ρ c (Proc.devRef .tc main_v17) : Vec Ideal S8x24 .f32)
    = shapeCast S8x24 (W3 m ρ c (Proc.devRef .tc main_v16_1) : Vec Ideal S8x1x24 .f32) shapeCasts_S8x1x24_S8x24 := by
  show StableHlo.after hostOps2 _ (Proc.devRef .tc main_v17) = _
  after_results
  rfl

theorem W1_arg (c : Dev nD) : W1 m ρ c (Proc.devRef .tc main_arg3) = a3 m c ∧ W1 m ρ c (Proc.devRef .tc main_arg4) = a4 m c
    ∧ W1 m ρ c (Proc.devRef .tc main_arg5) = a5 m c :=
  ⟨W1_of_ne m ρ c main_arg3 (by decide), W1_of_ne m ρ c main_arg4 (by decide), W1_of_ne m ρ c main_arg5 (by decide)⟩

/-! ## Region 0's outputs against the reference's stages -/

theorem rm_8x1x24 (b : Fin 8) (h : Fin 24) :
    (S8x1x24.rowMajor (ix3 b (0 : Fin 1) h)).val = (S8x24.rowMajor (ix2 b h)).val := by
  rw [Shape.rowMajor_val_three, Shape.rowMajor_val_two]
  show (b.val * 1 + 0) * 24 + h.val = b.val * 24 + h.val
  omega

/-- The reference's projection at an index, spelled with the kernel's order of the factors. -/
theorem ref_pre_apply (x0 : Vec Ideal S8x4096x2048 .f32) (x1 : Vec Ideal S24x2048 .f32) (b : Fin 8) (t : Fin 4096) (h : Fin 24) :
    Cert.ReferenceIdeal.Read.val_main_v0 (F := Ideal) x0 x1 (ix3 b t h) = ∑ d : Fin 2048, x1 (ix2 h d) * x0 (ix3 b t d) := by
  rw [Cert.ReferenceIdeal.Read.val_main_v0_apply]
  refine Finset.sum_congr rfl fun d _ => ?_
  rw [mul_comm]
  congr 1
  · exact congrArg x1 (funext fun a => by match a with | ⟨0, _⟩ => rfl | ⟨1, _⟩ => rfl)
  · exact congrArg x0 (funext fun a => by match a with | ⟨0, _⟩ => rfl | ⟨1, _⟩ => rfl | ⟨2, _⟩ => rfl)

/-- The reference's row sums at an index. -/
theorem ref_sum1_apply (x0 : Vec Ideal S8x4096x2048 .f32) (x1 : Vec Ideal S24x2048 .f32) (b : Fin 8) (h : Fin 24) :
    Cert.ReferenceIdeal.Read.val_main_v2 (F := Ideal) x0 x1 (ix2 b h) = ∑ t : Fin 4096, ∑ d : Fin 2048, x1 (ix2 h d) * x0 (ix3 b t d) := by
  rw [Cert.ReferenceIdeal.Read.val_main_v2_apply, Cert.ReferenceIdeal.Read.val_main_cst_apply]
  show Ideal.ofBits .f32 0x00000000#32 + _ = _
  rw [Ideal.ofBits_zero_f32, zero_add]
  refine Finset.sum_congr rfl fun t _ => ?_
  rw [← ref_pre_apply x0 x1 b t h]
  exact congrArg _ (funext fun a => by match a with | ⟨0, _⟩ => rfl | ⟨1, _⟩ => rfl | ⟨2, _⟩ => rfl)

theorem ref_sum2_apply (x0 : Vec Ideal S8x4096x2048 .f32) (x2 : Vec Ideal S24x2048 .f32) (b : Fin 8) (h : Fin 24) :
    Cert.ReferenceIdeal.Read.val_main_v5 (F := Ideal) x0 x2 (ix2 b h) = ∑ t : Fin 4096, ∑ d : Fin 2048, x2 (ix2 h d) * x0 (ix3 b t d) := by
  rw [Cert.ReferenceIdeal.Read.val_main_v5_apply, Cert.ReferenceIdeal.Read.val_main_cst_1_apply]
  show Ideal.ofBits .f32 0x00000000#32 + _ = _
  rw [Ideal.ofBits_zero_f32, zero_add]
  refine Finset.sum_congr rfl fun t _ => ?_
  rw [show Cert.ReferenceIdeal.Read.val_main_v1 (F := Ideal) x0 x2 = Cert.ReferenceIdeal.Read.val_main_v0 (F := Ideal) x0 x2 from rfl, ← ref_pre_apply x0 x2 b t h]
  exact congrArg _ (funext fun a => by match a with | ⟨0, _⟩ => rfl | ⟨1, _⟩ => rfl | ⟨2, _⟩ => rfl)

/-- Region 0's first row-sum array, reshaped, is the reference's. -/
theorem sum1_eq (c : Dev nD) :
    shapeCast S8x24 (W1 m ρ c (Proc.devRef .tc main_v0_1) : Vec Ideal S8x1x24 .f32) shapeCasts_S8x1x24_S8x24
      = Cert.ReferenceIdeal.Read.val_main_v2 (F := Ideal) (a0 m c) (a1 m c) := by
  funext i
  obtain ⟨b, h, rfl⟩ : ∃ (b : Fin 8) (h : Fin 24), i = ix2 b h := ⟨i 0, i 1, eq_ix2 i⟩
  rw [shapeCast_apply _ _ (ix2 b h) (ix3 b (0 : Fin 1) h) (rm_8x1x24 b h), ref_sum1_apply]
  exact (congrFun (W1_arr m ρ c 4) _).trans (final0_4_apply (V0 m ρ) c b h)

theorem sum2_eq (c : Dev nD) :
    shapeCast S8x24 (W1 m ρ c (Proc.devRef .tc main_v0_2) : Vec Ideal S8x1x24 .f32) shapeCasts_S8x1x24_S8x24
      = Cert.ReferenceIdeal.Read.val_main_v5 (F := Ideal) (a0 m c) (a2 m c) := by
  funext i
  obtain ⟨b, h, rfl⟩ : ∃ (b : Fin 8) (h : Fin 24), i = ix2 b h := ⟨i 0, i 1, eq_ix2 i⟩
  rw [shapeCast_apply _ _ (ix2 b h) (ix3 b (0 : Fin 1) h) (rm_8x1x24 b h), ref_sum2_apply]
  exact (congrFun (W1_arr m ρ c 5) _).trans (final0_5_apply (V0 m ρ) c b h)

/-! ## Region 1's entry arrays -/

/-- The 24 × 24 matrix region 1 reads is the reference's. -/
theorem earr_eq (c : Dev nD) : earr1 (V2 m ρ) c
    = Cert.ReferenceIdeal.Read.val_main_v16 (F := Ideal) (a0 m c) (a1 m c) (a2 m c) (a3 m c) (a5 m c) := by
  show (W2 m ρ c (Proc.devRef .tc main_v15) : Vec Ideal S24x24 .f32) = _
  rw [W2_v15, sum1_eq, sum2_eq, (W1_arg m ρ c).1, (W1_arg m ρ c).2.2, effW_ref]

/-- The stored projection region 1 reads is the reference's, transposed. -/
theorem parr_apply (c : Dev nD) (b : Fin 8) (h : Fin 24) (t : Fin 4096) :
    parr1 (V2 m ρ) c (ix3 b h t) = Cert.ReferenceIdeal.Read.val_main_v0 (F := Ideal) (a0 m c) (a1 m c) (ix3 b t h) := by
  show (W2 m ρ c (Proc.devRef .tc main_v0_0) : Vec Ideal S8x24x4096 .bf16) (ix3 b h t) = _
  rw [W2_v0_0, ref_pre_apply]
  exact (congrFun (W1_arr m ρ c 3) _).trans (final0_3_apply (V0 m ρ) c b h t)

theorem warr_eq (c : Dev nD) : warr1 (V2 m ρ) c = a4 m c := by
  show (W2 m ρ c (Proc.devRef .tc main_arg4) : Vec Ideal S2048x24 .f32) = _
  rw [W2_arg4]; exact (W1_arg m ρ c).2.1

/-! ## The two results -/

/-- The reference's hidden activations at an index, over the stored projection. -/
theorem ref_hidden_apply (x0 : Vec Ideal S8x4096x2048 .f32) (x1 x2 : Vec Ideal S24x2048 .f32) (x3 x5 : Vec Ideal S24x24 .f32)
    (b : Fin 8) (t : Fin 4096) (e : Fin 24) :
    Cert.ReferenceIdeal.Read.val_main_v17 (F := Ideal) x0 x1 x2 x3 x5 (ix3 b t e)
      = ∑ h : Fin 24, Cert.ReferenceIdeal.Read.val_main_v0 (F := Ideal) x0 x1 (ix3 b t h) * Cert.ReferenceIdeal.Read.val_main_v16 (F := Ideal) x0 x1 x2 x3 x5 (ix2 h e) := by
  rw [Cert.ReferenceIdeal.Read.val_main_v17_apply]
  refine Finset.sum_congr rfl fun h _ => ?_
  congr 1
  · exact congrArg _ (funext fun a => by match a with | ⟨0, _⟩ => rfl | ⟨1, _⟩ => rfl | ⟨2, _⟩ => rfl)
  · exact congrArg _ (funext fun a => by match a with | ⟨0, _⟩ => rfl | ⟨1, _⟩ => rfl)

/-- The modulation the kernel program returns is the reference's. -/
theorem result_mod (c : Dev nD) :
    Cert.ReferenceIdeal.Read.val_main_v21 (F := Ideal) (a0 m c) (a1 m c) (a2 m c) (a3 m c) (a4 m c) (a5 m c)
      = (W4 m ρ c (Proc.devRef .tc main_v16_0) : Vec Ideal S8x4096x2048 .f32) := by
  funext i
  obtain ⟨b, t, d, rfl⟩ : ∃ (b : Fin 8) (t : Fin 4096) (d : Fin 2048), i = ix3 b t d := ⟨i 0, i 1, i 2, eq_ix3 i⟩
  have hk : (W4 m ρ c (Proc.devRef .tc main_v16_0) : Vec Ideal S8x4096x2048 .f32) (ix3 b t d)
      = ∑ e : Fin 24, (∑ h : Fin 24, parr1 (V2 m ρ) c (ix3 b h t) * earr1 (V2 m ρ) c (ix2 h e)) * warr1 (V2 m ρ) c (ix2 d e) := by
    rw [W4_v16_0]
    exact (congrFun (W3_arr m ρ c 3) _).trans (final1_3_apply (V2 m ρ) c b t d)
  rw [hk, Cert.ReferenceIdeal.Read.val_main_v21_apply, earr_eq, warr_eq]
  refine Finset.sum_congr rfl fun e _ => ?_
  congr 1
  · rw [show Cert.ReferenceIdeal.Read.lidx_main_v21 (ix3 b t d) e = ix3 b t e from funext fun a => by match a with | ⟨0, _⟩ => rfl | ⟨1, _⟩ => rfl | ⟨2, _⟩ => rfl,
      ref_hidden_apply]
    exact Finset.sum_congr rfl fun h _ => by rw [parr_apply]
  · exact congrArg _ (funext fun a => by match a with | ⟨0, _⟩ => rfl | ⟨1, _⟩ => rfl)

/-- The mean hidden state the kernel program returns is the reference's. -/
theorem result_state (c : Dev nD) :
    Cert.ReferenceIdeal.Read.val_main_v20 (F := Ideal) (a0 m c) (a1 m c) (a2 m c) (a3 m c) (a5 m c)
      = (W4 m ρ c (Proc.devRef .tc main_v17) : Vec Ideal S8x24 .f32) := by
  funext i
  obtain ⟨b, e, rfl⟩ : ∃ (b : Fin 8) (e : Fin 24), i = ix2 b e := ⟨i 0, i 1, eq_ix2 i⟩
  have hk : (W4 m ρ c (Proc.devRef .tc main_v17) : Vec Ideal S8x24 .f32) (ix2 b e)
      = Ideal.div (∑ t : Fin 4096, ∑ h : Fin 24, parr1 (V2 m ρ) c (ix3 b h t) * earr1 (V2 m ρ) c (ix2 h e)) (Ideal.ofBits .f32 0x45800000#32) := by
    rw [W4_v17, shapeCast_apply _ _ (ix2 b e) (ix3 b (0 : Fin 1) e) (rm_8x1x24 b e)]
    exact (congrFun (W3_arr m ρ c 4) _).trans (final1_4_apply (V2 m ρ) c b e)
  have hs : (∑ k : Fin 4096, Cert.ReferenceIdeal.Read.val_main_v17 (F := Ideal) (a0 m c) (a1 m c) (a2 m c) (a3 m c) (a5 m c) (Cert.ReferenceIdeal.Read.idx_main_v18 (ix2 b e) k))
      = ∑ t : Fin 4096, ∑ h : Fin 24, parr1 (V2 m ρ) c (ix3 b h t) * earr1 (V2 m ρ) c (ix2 h e) := by
    refine Finset.sum_congr rfl fun t _ => ?_
    rw [show Cert.ReferenceIdeal.Read.idx_main_v18 (ix2 b e) t = ix3 b t e from funext fun a => by match a with | ⟨0, _⟩ => rfl | ⟨1, _⟩ => rfl | ⟨2, _⟩ => rfl,
      ref_hidden_apply, earr_eq]
    exact Finset.sum_congr rfl fun h _ => by rw [parr_apply]
  rw [hk, Cert.ReferenceIdeal.Read.val_main_v20_apply, Cert.ReferenceIdeal.Read.val_main_v18_apply, Cert.ReferenceIdeal.Read.val_main_v19_apply, Cert.ReferenceIdeal.Read.val_main_cst_6_apply, Cert.ReferenceIdeal.Read.val_main_cst_7_apply,
    hs, Ideal.hostDivf_def, Ideal.ofBits_def, Ideal.ofBits_def, Ideal.ofBits_zero_f32, zero_add]

end Cert.KernelIdeal.KV

end
-- ==== Proof.lean ====
/-
  The certificate of the two-pass Hebbian plasticity kernel against its reference.

  Pass 1 streams x (8 × 4096 × 2048) in blocks of 1024 rows: it stores the projection P[b,h,t] = Σ_d W_pre[h,d]·x[b,t,d]
  and accumulates, over the four row blocks of a batch, the sums over t of the projections onto W_pre and onto W_post.
  The host forms the means, their outer product averaged over the batches, the new trace and the effective 24 × 24 matrix E.
  Pass 2 streams P in blocks of 512 positions: hidden[b,t,e] = Σ_h P[b,h,t]·E[h,e], modulation[b,t,d] = Σ_e hidden[b,t,e]·W_out[d,e],
  and the mean of hidden over t, accumulated over the eight blocks of a batch and divided by 4096 at the last.
  The reference computes the same quantities with whole-array contractions and reductions.  Over the extended reals the two
  agree index by index: a sum over a batch's positions is the sum over its blocks of the blocks' sums (associativity), the
  products commute, and the host operations that build E are the same on both sides.  No step needs the inputs finite.

  The three frames are the generated ones (the reference's is its generated run with the results dropped); nothing was
  rewritten by the idealization, so that conjunct is trivial.
-/
import proofs.«110294_j17282948399130_1_alg».proof.Defs
import proofs.«110294_j17282948399130_1_alg».proof.Proof.Gen.Kernel
import proofs.«110294_j17282948399130_1_alg».proof.Proof.Gen.Kernel.Skeleton
import proofs.«110294_j17282948399130_1_alg».proof.Proof.Gen.Kernel.Launch
import proofs.«110294_j17282948399130_1_alg».proof.Proof.Gen.Kernel.Points
import proofs.«110294_j17282948399130_1_alg».proof.Proof.Gen.Kernel.Frame
import proofs.«110294_j17282948399130_1_alg».proof.Proof.Gen.KernelIdeal
import proofs.«110294_j17282948399130_1_alg».proof.Proof.Gen.KernelIdeal.Skeleton
import proofs.«110294_j17282948399130_1_alg».proof.Proof.Gen.KernelIdeal.Launch
import proofs.«110294_j17282948399130_1_alg».proof.Proof.Gen.KernelIdeal.Points
import proofs.«110294_j17282948399130_1_alg».proof.Proof.Gen.KernelIdeal.Frame
import proofs.«110294_j17282948399130_1_alg».proof.Proof.Gen.ReferenceIdeal
import proofs.«110294_j17282948399130_1_alg».proof.Proof.Gen.ReferenceIdeal.Run
import proofs.«110294_j17282948399130_1_alg».proof.Proof.Gen.ReferenceIdeal.Read
import proofs.«110294_j17282948399130_1_alg».proof.Proof.Gen.Pre_finite_inputs
import proofs.«110294_j17282948399130_1_alg».proof.Proof.KRun
import proofs.«110294_j17282948399130_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the modulation and the mean hidden state at the reference's stages of the shared arguments. -/
theorem algebraic : Cert.algebraic_KernelIdeal_ReferenceIdeal := by
  intro m ρ m' ρ' _ hagree
  refine ⟨fun c => Cert.ReferenceIdeal.Read.val_main_v21 (F := Ideal) (Cert.KernelIdeal.KV.a0 m c) (Cert.KernelIdeal.KV.a1 m c)
      (Cert.KernelIdeal.KV.a2 m c) (Cert.KernelIdeal.KV.a3 m c) (Cert.KernelIdeal.KV.a4 m c) (Cert.KernelIdeal.KV.a5 m c),
    fun c => Cert.ReferenceIdeal.Read.val_main_v20 (F := Ideal) (Cert.KernelIdeal.KV.a0 m c) (Cert.KernelIdeal.KV.a1 m c)
      (Cert.KernelIdeal.KV.a2 m c) (Cert.KernelIdeal.KV.a3 m c) (Cert.KernelIdeal.KV.a5 m c), ?_, ?_⟩
  · exact (θ_run Cert.KernelIdeal.defs _ _).mono
      (fun _ h c => ⟨(h c).1.trans (Cert.KernelIdeal.KV.result_mod m ρ c).symm,
        (h c).2.1.trans (Cert.KernelIdeal.KV.result_state m ρ c).symm, (h c).2.2⟩)
      (Cert.KernelIdeal.KV.run_named (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5⟩ := hagree c
      rw [e0, e1, e2, e3, e4, e5]
      exact Cert.ReferenceIdeal.Read.val_main_v21_eq _ _ _ _ _ _
    · obtain ⟨e0, e1, e2, e3, e4, e5⟩ := hagree c
      rw [e0, e1, e2, e3, e5]
      exact Cert.ReferenceIdeal.Read.val_main_v20_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
